-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x20 : Shape := ⟨2, ![100000, 20]⟩
abbrev S3x16 : Shape := ⟨2, ![3, 16]⟩
abbrev S16 : Shape := ⟨1, ![16]⟩
abbrev S320x32 : Shape := ⟨2, ![320, 32]⟩
abbrev S32 : Shape := ⟨1, ![32]⟩
abbrev S640x64 : Shape := ⟨2, ![640, 64]⟩
abbrev S64 : Shape := ⟨1, ![64]⟩
abbrev S1280x128 : Shape := ⟨2, ![1280, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S320x32 : S_.BroadcastsInDim S320x32 (![] : Fin 0 → Fin S320x32.rank)
  reducesTo_S320x32_S_d0_1 : S320x32.ReducesTo [0, 1] S_
  bcast_S_S32 : S_.BroadcastsInDim S32 (![] : Fin 0 → Fin S32.rank)
  reducesTo_S32_S_d0 : S32.ReducesTo [0] S_
  bcast_S_S640x64 : S_.BroadcastsInDim S640x64 (![] : Fin 0 → Fin S640x64.rank)
  reducesTo_S640x64_S_d0_1 : S640x64.ReducesTo [0, 1] S_
  bcast_S_S64 : S_.BroadcastsInDim S64 (![] : Fin 0 → Fin S64.rank)
  reducesTo_S64_S_d0 : S64.ReducesTo [0] S_
  bcast_S_S1280x128 : S_.BroadcastsInDim S1280x128 (![] : Fin 0 → Fin S1280x128.rank)
  reducesTo_S1280x128_S_d0_1 : S1280x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S100000x20 : S_.BroadcastsInDim S100000x20 (![] : Fin 0 → Fin S100000x20.rank)
  reducesTo_S100000x20_S_d0_1 : S100000x20.ReducesTo [0, 1] S_

variable [Facts]

def fn_part4 {F : FTy → Type} [FloatOps F] (main_arg1 : IVec S100000x20 32) (main_v67 : IVec S_ 1) : IVec S_ 1 :=
  let main_c_26 : IVec S_ 32 := constantI S_ 32 100000#32
  let main_v68 : IVec S100000x20 32 := broadcastInDim S100000x20 ![] bcast_S_S100000x20 main_c_26
  let main_v69 : IVec S100000x20 1 := cmpi .slt main_arg1 main_v68
  let main_c_27 : IVec S_ 1 := constantI S_ 1 1#1
  let main_v70 : IVec S_ 1 := (fun x v => Host.reduce IntOp.andi x v reducesTo_S100000x20_S_d0_1 h_S_) main_v69 main_c_27
  let main_v71 : IVec S_ 1 := andi main_v67 main_v70
  main_v71

def fn_part3 {F : FTy → Type} [FloatOps F] (main_arg1 : IVec S100000x20 32) (main_arg12 : FVec F S256x10 .f32) (main_arg13 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x10 .f32 := Host.absf main_arg12
  let main_cst_20 : FVec F S_ .f32 := constant S_ .f32 0x7F800000#32
  let main_v55 : FVec F S256x10 .f32 := broadcastInDim S256x10 ![] bcast_S_S256x10 main_cst_20
  let main_v56 : IVec S256x10 1 := cmpf .olt main_v54 main_v55
  let main_c_21 : IVec S_ 1 := constantI S_ 1 1#1
  let main_v57 : IVec S_ 1 := (fun x v => Host.reduce IntOp.andi x v reducesTo_S256x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_c_24 : IVec S_ 32 := constantI S_ 32 0#32
  let main_v64 : IVec S100000x20 32 := broadcastInDim S100000x20 ![] bcast_S_S100000x20 main_c_24
  let main_v65 : IVec S100000x20 1 := cmpi .sge main_arg1 main_v64
  let main_c_25 : IVec S_ 1 := constantI S_ 1 1#1
  let main_v66 : IVec S_ 1 := (fun x v => Host.reduce IntOp.andi x v reducesTo_S100000x20_S_d0_1 h_S_) main_v65 main_c_25
  let main_v67 : IVec S_ 1 := andi main_v63 main_v66
  fn_part4 (F := F) main_arg1 main_v67

def fn_part2 {F : FTy → Type} [FloatOps F] (main_arg1 : IVec S100000x20 32) (main_arg8 : FVec F S1280x128 .f32) (main_arg9 : FVec F S128 .f32) (main_arg10 : FVec F S128x256 .f32) (main_arg11 : FVec F S256 .f32) (main_arg12 : FVec F S256x10 .f32) (main_arg13 : FVec F S10 .f32) (main_v33 : IVec S_ 1) : IVec S_ 1 :=
  let main_v34 : FVec F S1280x128 .f32 := Host.absf main_arg8
  let main_cst_12 : FVec F S_ .f32 := constant S_ .f32 0x7F800000#32
  let main_v35 : FVec F S1280x128 .f32 := broadcastInDim S1280x128 ![] bcast_S_S1280x128 main_cst_12
  let main_v36 : IVec S1280x128 1 := cmpf .olt main_v34 main_v35
  let main_c_13 : IVec S_ 1 := constantI S_ 1 1#1
  let main_v37 : IVec S_ 1 := (fun x v => Host.reduce IntOp.andi x v reducesTo_S1280x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_v48 main_v49 main_v50

def fn_part1 {F : FTy → Type} [FloatOps F] (main_arg1 : IVec S100000x20 32) (main_arg5 : FVec F S32 .f32) (main_arg6 : FVec F S640x64 .f32) (main_arg7 : FVec F S64 .f32) (main_arg8 : FVec F S1280x128 .f32) (main_arg9 : FVec F S128 .f32) (main_arg10 : FVec F S128x256 .f32) (main_arg11 : FVec F S256 .f32) (main_arg12 : FVec F S256x10 .f32) (main_arg13 : FVec F S10 .f32) (main_v13 : IVec S_ 1) (main_v16 : IVec S320x32 1) : IVec S_ 1 :=
  let main_c_5 : IVec S_ 1 := constantI S_ 1 1#1
  let main_v17 : IVec S_ 1 := (fun x v => Host.reduce IntOp.andi x v reducesTo_S320x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S640x64 .f32 := Host.absf main_arg6
  let main_cst_8 : FVec F S_ .f32 := constant S_ .f32 0x7F800000#32
  let main_v25 : FVec F S640x64 .f32 := broadcastInDim S640x64 ![] bcast_S_S640x64 main_cst_8
  let main_v26 : IVec S640x64 1 := cmpf .olt main_v24 main_v25
  let main_c_9 : IVec S_ 1 := constantI S_ 1 1#1
  let main_v27 : IVec S_ 1 := (fun x v => Host.reduce IntOp.andi x v reducesTo_S640x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x3 .f32) (main_arg1 : IVec S100000x20 32) (main_arg2 : FVec F S3x16 .f32) (main_arg3 : FVec F S16 .f32) (main_arg4 : FVec F S320x32 .f32) (main_arg5 : FVec F S32 .f32) (main_arg6 : FVec F S640x64 .f32) (main_arg7 : FVec F S64 .f32) (main_arg8 : FVec F S1280x128 .f32) (main_arg9 : FVec F S128 .f32) (main_arg10 : FVec F S128x256 .f32) (main_arg11 : FVec F S256 .f32) (main_arg12 : FVec F S256x10 .f32) (main_arg13 : FVec F S10 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S320x32 .f32 := Host.absf main_arg4
  let main_cst_4 : FVec F S_ .f32 := constant S_ .f32 0x7F800000#32
  let main_v15 : FVec F S320x32 .f32 := broadcastInDim S320x32 ![] bcast_S_S320x32 main_cst_4
  let main_v16 : IVec S320x32 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x3 : Shape := ⟨2, ![100000, 3]⟩
abbrev S100000x20 : Shape := ⟨2, ![100000, 20]⟩
abbrev S3x16 : Shape := ⟨2, ![3, 16]⟩
abbrev S16 : Shape := ⟨1, ![16]⟩
abbrev S320x32 : Shape := ⟨2, ![320, 32]⟩
abbrev S32 : Shape := ⟨1, ![32]⟩
abbrev S640x64 : Shape := ⟨2, ![640, 64]⟩
abbrev S64 : Shape := ⟨1, ![64]⟩
abbrev S1280x128 : Shape := ⟨2, ![1280, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S2000000 : Shape := ⟨1, ![2000000]⟩
abbrev S100000x16 : Shape := ⟨2, ![100000, 16]⟩
abbrev S2000x3 : Shape := ⟨2, ![2000, 3]⟩
abbrev S2000x16 : Shape := ⟨2, ![2000, 16]⟩
abbrev S1x16 : Shape := ⟨2, ![1, 16]⟩
abbrev S2000000x1 : Shape := ⟨2, ![2000000, 1]⟩
abbrev S2000000x16 : Shape := ⟨2, ![2000000, 16]⟩
abbrev S100000x320 : Shape := ⟨2, ![100000, 320]⟩
abbrev S100000x32 : Shape := ⟨2, ![100000, 32]⟩
abbrev S2000x320 : Shape := ⟨2, ![2000, 320]⟩
abbrev S2000x32 : Shape := ⟨2, ![2000, 32]⟩
abbrev S1x32 : Shape := ⟨2, ![1, 32]⟩
abbrev S2000000x32 : Shape := ⟨2, ![2000000, 32]⟩
abbrev S100000x640 : Shape := ⟨2, ![100000, 640]⟩
abbrev S100000x64 : Shape := ⟨2, ![100000, 64]⟩
abbrev S2000x640 : Shape := ⟨2, ![2000, 640]⟩
abbrev S2000x64 : Shape := ⟨2, ![2000, 64]⟩
abbrev S1x64 : Shape := ⟨2, ![1, 64]⟩
abbrev S2000000x64 : Shape := ⟨2, ![2000000, 64]⟩
abbrev S100000x1280 : Shape := ⟨2, ![100000, 1280]⟩
abbrev S100000x10 : Shape := ⟨2, ![100000, 10]⟩
abbrev S2000x1280 : Shape := ⟨2, ![2000, 1280]⟩
abbrev S2000x10 : Shape := ⟨2, ![2000, 10]⟩
abbrev S2000x128 : Shape := ⟨2, ![2000, 128]⟩
abbrev S1x128 : Shape := ⟨2, ![1, 128]⟩
abbrev S2000x256 : Shape := ⟨2, ![2000, 256]⟩
abbrev S1x256 : Shape := ⟨2, ![1, 256]⟩
abbrev S1x10 : Shape := ⟨2, ![1, 10]⟩
abbrev S2000 : Shape := ⟨1, ![2000]⟩
abbrev S2000x1 : Shape := ⟨2, ![2000, 1]⟩

abbrev nBuf : Space → Nat
  | .hbm => 57
  | .vmem => 28
  | .smem => 0
  | _ => 0

abbrev bufTy : (tb : Table) → Fin (tcTables nBuf tb) → BufTy
  | .hbm, ⟨0, _⟩ => ⟨S100000x3, .f32⟩
  | .hbm, ⟨1, _⟩ => ⟨S100000x20, .i32⟩
  | .hbm, ⟨2, _⟩ => ⟨S3x16, .f32⟩
  | .hbm, ⟨3, _⟩ => ⟨S16, .f32⟩
  | .hbm, ⟨4, _⟩ => ⟨S320x32, .f32⟩
  | .hbm, ⟨5, _⟩ => ⟨S32, .f32⟩
  | .hbm, ⟨6, _⟩ => ⟨S640x64, .f32⟩
  | .hbm, ⟨7, _⟩ => ⟨S64, .f32⟩
  | .hbm, ⟨8, _⟩ => ⟨S1280x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x10, .f32⟩
  | .hbm, ⟨13, _⟩ => ⟨S10, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S100000x20, .i32⟩
  | .hbm, ⟨18, _⟩ => ⟨S100000x20, .i32⟩
  | .hbm, ⟨19, _⟩ => ⟨S_, .i32⟩
  | .hbm, ⟨20, _⟩ => ⟨S100000x20, .i32⟩
  | .hbm, ⟨21, _⟩ => ⟨S100000x20, .i32⟩
  | .hbm, ⟨22, _⟩ => ⟨S2000000, .i32⟩
  | .hbm, ⟨23, _⟩ => ⟨S100000x16, .bf16⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x16, .bf16⟩
  | .hbm, ⟨33, _⟩ => ⟨S100000x320, .bf16⟩
  | .hbm, ⟨34, _⟩ => ⟨S100000x32, .bf16⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000x32, .bf16⟩
  | .hbm, ⟨44, _⟩ => ⟨S100000x640, .bf16⟩
  | .hbm, ⟨45, _⟩ => ⟨S100000x64, .bf16⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S2000000x64, .bf16⟩
  | .hbm, ⟨55, _⟩ => ⟨S100000x1280, .bf16⟩
  | .hbm, ⟨56, _⟩ => ⟨S100000x10, .f32⟩
  | .local _ .vmem, ⟨0, _⟩ => ⟨S2000x3, .f32⟩
  | .local _ .vmem, ⟨1, _⟩ => ⟨S2000x3, .f32⟩
  | .local _ .vmem, ⟨2, _⟩ => ⟨S3x16, .f32⟩
  | .local _ .vmem, ⟨3, _⟩ => ⟨S16, .f32⟩
  | .local _ .vmem, ⟨4, _⟩ => ⟨S2000x16, .bf16⟩
  | .local _ .vmem, ⟨5, _⟩ => ⟨S2000x16, .bf16⟩
  | .local _ .vmem, ⟨6, _⟩ => ⟨S2000x320, .bf16⟩
  | .local _ .vmem, ⟨7, _⟩ => ⟨S2000x320, .bf16⟩
  | .local _ .vmem, ⟨8, _⟩ => ⟨S320x32, .f32⟩
  | .local _ .vmem, ⟨9, _⟩ => ⟨S32, .f32⟩
  | .local _ .vmem, ⟨10, _⟩ => ⟨S2000x32, .bf16⟩
  | .local _ .vmem, ⟨11, _⟩ => ⟨S2000x32, .bf16⟩
  | .local _ .vmem, ⟨12, _⟩ => ⟨S2000x640, .bf16⟩
  | .local _ .vmem, ⟨13, _⟩ => ⟨S2000x640, .bf16⟩
  | .local _ .vmem, ⟨14, _⟩ => ⟨S640x64, .f32⟩
  | .local _ .vmem, ⟨15, _⟩ => ⟨S64, .f32⟩
  | .local _ .vmem, ⟨16, _⟩ => ⟨S2000x64, .bf16⟩
  | .local _ .vmem, ⟨17, _⟩ => ⟨S2000x64, .bf16⟩
  | .local _ .vmem, ⟨18, _⟩ => ⟨S2000x1280, .bf16⟩
  | .local _ .vmem, ⟨19, _⟩ => ⟨S2000x1280, .bf16⟩
  | .local _ .vmem, ⟨20, _⟩ => ⟨S1280x128, .f32⟩
  | .local _ .vmem, ⟨21, _⟩ => ⟨S128, .f32⟩
  | .local _ .vmem, ⟨22, _⟩ => ⟨S128x256, .f32⟩
  | .local _ .vmem, ⟨23, _⟩ => ⟨S256, .f32⟩
  | .local _ .vmem, ⟨24, _⟩ => ⟨S256x10, .f32⟩
  | .local _ .vmem, ⟨25, _⟩ => ⟨S10, .f32⟩
  | .local _ .vmem, ⟨26, _⟩ => ⟨S2000x10, .f32⟩
  | .local _ .vmem, ⟨27, _⟩ => ⟨S2000x10, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c_1 : Ref sig .tc := ⟨.hbm, 24, rfl⟩
abbrev main_v3 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_3 : Ref sig .tc := ⟨.hbm, 35, rfl⟩
abbrev main_v12 : Ref sig .tc := ⟨.hbm, 36, rfl⟩
abbrev main_v13 : Ref sig .tc := ⟨.hbm, 37, rfl⟩
abbrev main_c_4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x320 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S320x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x640 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S640x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1280 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1280x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x10 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S100000x20 : S_.BroadcastsInDim S100000x20 (![] : Fin 0 → Fin S100000x20.rank)
  shapeCasts_S100000x20_S2000000 : S100000x20.ShapeCasts S2000000
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  packedbf16_S2000x16_S2000x16_0_0 : (Rect.unit (s := S2000x16) ![0, 0] S2000x16.size inb_S2000x16_S2000x16_0_0).PackedRows (EltTy.packing .bf16)
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x16_S100000x320 : S2000000x16.ShapeCasts S100000x320
  inb_S2000x320_S2000x320_0_0 : ∀ a, (![0, 0] : Fin 2 → Nat) a + S2000x320.size a ≤ S2000x320.size a
  h_S2000x320 : 0 < S2000x320.numel
  shapeCasts_S2000x320_S2000x320 : S2000x320.ShapeCasts S2000x320
  inb_S320x32_S320x32_0_0 : ∀ a, (![0, 0] : Fin 2 → Nat) a + S320x32.size a ≤ S320x32.size a
  h_S320x32 : 0 < S320x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  packedbf16_S2000x32_S2000x32_0_0 : (Rect.unit (s := S2000x32) ![0, 0] S2000x32.size inb_S2000x32_S2000x32_0_0).PackedRows (EltTy.packing .bf16)
  shapeCasts_S2000000x32_S100000x640 : S2000000x32.ShapeCasts S100000x640
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  inb_S640x64_S640x64_0_0 : ∀ a, (![0, 0] : Fin 2 → Nat) a + S640x64.size a ≤ S640x64.size a
  h_S640x64 : 0 < S640x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  shapeCasts_S2000000x64_S100000x1280 : S2000000x64.ShapeCasts S100000x1280
  inb_S2000x1280_S2000x1280_0_0 : ∀ a, (![0, 0] : Fin 2 → Nat) a + S2000x1280.size a ≤ S2000x1280.size a
  h_S2000x1280 : 0 < S2000x1280.numel
  shapeCasts_S2000x1280_S2000x1280 : S2000x1280.ShapeCasts S2000x1280
  inb_S1280x128_S1280x128_0_0 : ∀ a, (![0, 0] : Fin 2 → Nat) a + S1280x128.size a ≤ S1280x128.size a
  h_S1280x128 : 0 < S1280x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  dot_S2000x3_S3x16_S2000x16_1_0_0_1_n_n_wf : DotDims.WF S2000x3 S3x16 S2000x16 [1] [0] [0] [1] [] []
  gather_S100000x16_S2000000x1_S2000000x16_1_0_n_n_0_1_116_wf : GatherDims.WF S100000x16 S2000000x1 S2000000x16 [1] [0] [] [0] [] 1 ![1, 16]
  dot_S2000x320_S320x32_S2000x32_1_0_0_1_n_n_wf : DotDims.WF S2000x320 S320x32 S2000x32 [1] [0] [0] [1] [] []
  gather_S100000x32_S2000000x1_S2000000x32_1_0_n_n_0_1_132_wf : GatherDims.WF S100000x32 S2000000x1 S2000000x32 [1] [0] [] [0] [] 1 ![1, 32]
  dot_S2000x640_S640x64_S2000x64_1_0_0_1_n_n_wf : DotDims.WF S2000x640 S640x64 S2000x64 [1] [0] [0] [1] [] []
  gather_S100000x64_S2000000x1_S2000000x64_1_0_n_n_0_1_164_wf : GatherDims.WF S100000x64 S2000000x1 S2000000x64 [1] [0] [] [0] [] 1 ![1, 64]
  dot_S2000x1280_S1280x128_S2000x128_1_0_0_1_n_n_wf : DotDims.WF S2000x1280 S1280x128 S2000x128 [1] [0] [0] [1] [] []
  dot_S2000x128_S128x256_S2000x256_1_0_0_1_n_n_wf : DotDims.WF S2000x128 S128x256 S2000x256 [1] [0] [0] [1] [] []
  dot_S2000x256_S256x10_S2000x10_1_0_0_1_n_n_wf : DotDims.WF S2000x256 S256x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .bf16 = 32 ∨ (Rect.block (s := S100000x16) S2000x16.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x320.size a ≤ S100000x320.size a
  hwx1_0 : ∀ i : grid1.Coords, EltTy.bits .bf16 = 32 ∨ (Rect.block (s := S100000x320) S2000x320.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S320x32.size a ≤ S320x32.size a
  hwx1_1 : ∀ i : grid1.Coords, EltTy.bits .f32 = 32 ∨ (Rect.block (s := S320x32) S320x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .bf16 = 32 ∨ (Rect.block (s := S100000x32) S2000x32.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x640.size a ≤ S100000x640.size a
  hwx2_0 : ∀ i : grid2.Coords, EltTy.bits .bf16 = 32 ∨ (Rect.block (s := S100000x640) S2000x640.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S640x64.size a ≤ S640x64.size a
  hwx2_1 : ∀ i : grid2.Coords, EltTy.bits .f32 = 32 ∨ (Rect.block (s := S640x64) S640x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .bf16 = 32 ∨ (Rect.block (s := S100000x64) S2000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1280.size a ≤ S100000x1280.size a
  hwx3_0 : ∀ i : grid3.Coords, EltTy.bits .bf16 = 32 ∨ (Rect.block (s := S100000x1280) S2000x1280.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1280x128.size a ≤ S1280x128.size a
  hwx3_1 : ∀ i : grid3.Coords, EltTy.bits .f32 = 32 ∨ (Rect.block (s := S1280x128) S1280x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S10.size a ≤ S10.size a
  hwx3_6 : ∀ i : grid3.Coords, EltTy.bits .f32 = 32 ∨ (Rect.block (s := S10) S10.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x10.size a ≤ S100000x10.size a
  hwx3_7 : ∀ i : grid3.Coords, EltTy.bits .f32 = 32 ∨ (Rect.block (s := S100000x10) S2000x10.size (cc3_transform_7 i) (hinb3_7 i)).WholeWords (EltTy.packing .f32)

variable [Facts₀]

def dot_S2000x3_S3x16_S2000x16_1_0_0_1_n_n : DotDims S2000x3 S3x16 S2000x16 where
  lhsContracting := [1]
  rhsContracting := [0]
  lhsNonContracting := [0]
  rhsNonContracting := [1]
  lhsBatch := []
  rhsBatch := []
  wf := dot_S2000x3_S3x16_S2000x16_1_0_0_1_n_n_wf
def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def dot_S2000x320_S320x32_S2000x32_1_0_0_1_n_n : DotDims S2000x320 S320x32 S2000x32 where
  lhsContracting := [1]
  rhsContracting := [0]
  lhsNonContracting := [0]
  rhsNonContracting := [1]
  lhsBatch := []
  rhsBatch := []
  wf := dot_S2000x320_S320x32_S2000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def dot_S2000x640_S640x64_S2000x64_1_0_0_1_n_n : DotDims S2000x640 S640x64 S2000x64 where
  lhsContracting := [1]
  rhsContracting := [0]
  lhsNonContracting := [0]
  rhsNonContracting := [1]
  lhsBatch := []
  rhsBatch := []
  wf := dot_S2000x640_S640x64_S2000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S2000x1280_S1280x128_S2000x128_1_0_0_1_n_n : DotDims S2000x1280 S1280x128 S2000x128 where
  lhsContracting := [1]
  rhsContracting := [0]
  lhsNonContracting := [0]
  rhsNonContracting := [1]
  lhsBatch := []
  rhsBatch := []
  wf := dot_S2000x1280_S1280x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x10_S2000x10_1_0_0_1_n_n : DotDims S2000x256 S256x10 S2000x10 where
  lhsContracting := [1]
  rhsContracting := [0]
  lhsNonContracting := [0]
  rhsNonContracting := [1]
  lhsBatch := []
  rhsBatch := []
  wf := dot_S2000x256_S256x10_S2000x10_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S2000x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S320x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S2000x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S640x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S2000x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1280x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S256x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v29) S2000x10.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x3 : Shape := ⟨2, ![100000, 3]⟩
abbrev S100000x20 : Shape := ⟨2, ![100000, 20]⟩
abbrev S3x16 : Shape := ⟨2, ![3, 16]⟩
abbrev S16 : Shape := ⟨1, ![16]⟩
abbrev S320x32 : Shape := ⟨2, ![320, 32]⟩
abbrev S32 : Shape := ⟨1, ![32]⟩
abbrev S640x64 : Shape := ⟨2, ![640, 64]⟩
abbrev S64 : Shape := ⟨1, ![64]⟩
abbrev S1280x128 : Shape := ⟨2, ![1280, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S100000x16 : Shape := ⟨2, ![100000, 16]⟩
abbrev S1x16 : Shape := ⟨2, ![1, 16]⟩
abbrev S_ : Shape := ⟨0, ![]⟩
abbrev S2000000 : Shape := ⟨1, ![2000000]⟩
abbrev S2000000x1 : Shape := ⟨2, ![2000000, 1]⟩
abbrev S2000000x16 : Shape := ⟨2, ![2000000, 16]⟩
abbrev S100000x320 : Shape := ⟨2, ![100000, 320]⟩
abbrev S100000x32 : Shape := ⟨2, ![100000, 32]⟩
abbrev S1x32 : Shape := ⟨2, ![1, 32]⟩
abbrev S2000000x32 : Shape := ⟨2, ![2000000, 32]⟩
abbrev S100000x640 : Shape := ⟨2, ![100000, 640]⟩
abbrev S100000x64 : Shape := ⟨2, ![100000, 64]⟩
abbrev S1x64 : Shape := ⟨2, ![1, 64]⟩
abbrev S2000000x64 : Shape := ⟨2, ![2000000, 64]⟩
abbrev S100000x1280 : Shape := ⟨2, ![100000, 1280]⟩
abbrev S100000x128 : Shape := ⟨2, ![100000, 128]⟩
abbrev S1x128 : Shape := ⟨2, ![1, 128]⟩
abbrev S100000x256 : Shape := ⟨2, ![100000, 256]⟩
abbrev S1x256 : Shape := ⟨2, ![1, 256]⟩
abbrev S100000x10 : Shape := ⟨2, ![100000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 161
  | .vmem => 0
  | .smem => 0
  | _ => 0

abbrev hbmTy0_0 (i : Nat) : BufTy := match i % 128 with
  | 0 => ⟨S100000x3, .f32⟩
  | 1 => ⟨S100000x20, .i32⟩
  | 2 => ⟨S3x16, .f32⟩
  | 3 => ⟨S16, .f32⟩
  | 4 => ⟨S320x32, .f32⟩
  | 5 => ⟨S32, .f32⟩
  | 6 => ⟨S640x64, .f32⟩
  | 7 => ⟨S64, .f32⟩
  | 8 => ⟨S1280x128, .f32⟩
  | 9 => ⟨S128, .f32⟩
  | 10 => ⟨S128x256, .f32⟩
  | 11 => ⟨S256, .f32⟩
  | 12 => ⟨S256x10, .f32⟩
  | 13 => ⟨S10, .f32⟩
  | 14 => ⟨S100000x16, .f32⟩
  | 15 => ⟨S1x16, .f32⟩
  | 16 => ⟨S100000x16, .f32⟩
  | 17 => ⟨S100000x16, .f32⟩
  | 18 => ⟨S_, .f32⟩
  | 19 => ⟨S100000x16, .f32⟩
  | 20 => ⟨S100000x16, .i1⟩
  | 21 => ⟨S_, .f32⟩
  | 22 => ⟨S100000x16, .f32⟩
  | 23 => ⟨S100000x16, .i1⟩
  | 24 => ⟨S_, .f32⟩
  | 25 => ⟨S_, .f32⟩
  | 26 => ⟨S100000x16, .f32⟩
  | 27 => ⟨S100000x16, .f32⟩
  | 28 => ⟨S100000x16, .f32⟩
  | 29 => ⟨S_, .f32⟩
  | 30 => ⟨S100000x16, .f32⟩
  | 31 => ⟨S100000x16, .f32⟩
  | 32 => ⟨S100000x16, .f32⟩
  | 33 => ⟨S2000000, .i32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000x16, .f32⟩
  | 43 => ⟨S100000x320, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S100000x32, .f32⟩
  | 50 => ⟨S100000x32, .i1⟩
  | 51 => ⟨S_, .f32⟩
  | 52 => ⟨S100000x32, .f32⟩
  | 53 => ⟨S100000x32, .i1⟩
  | 54 => ⟨S_, .f32⟩
  | 55 => ⟨S_, .f32⟩
  | 56 => ⟨S100000x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S100000x32, .f32⟩
  | 63 => ⟨S2000000, .i32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x32, .f32⟩
  | 73 => ⟨S100000x640, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .i1⟩
  | 81 => ⟨S_, .f32⟩
  | 82 => ⟨S100000x64, .f32⟩
  | 83 => ⟨S100000x64, .i1⟩
  | 84 => ⟨S_, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x64, .f32⟩
  | 103 => ⟨S100000x1280, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .i1⟩
  | 111 => ⟨S_, .f32⟩
  | 112 => ⟨S100000x128, .f32⟩
  | 113 => ⟨S100000x128, .i1⟩
  | 114 => ⟨S_, .f32⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S100000x256, .f32⟩
  | 124 => ⟨S1x256, .f32⟩
  | 125 => ⟨S100000x256, .f32⟩
  | 126 => ⟨S100000x256, .f32⟩
  | 127 => ⟨S_, .f32⟩
  | _ => ⟨S100000x3, .f32⟩

abbrev hbmTy0_1 (i : Nat) : BufTy := match i % 128 with
  | 0 => ⟨S100000x256, .f32⟩
  | 1 => ⟨S100000x256, .i1⟩
  | 2 => ⟨S_, .f32⟩
  | 3 => ⟨S100000x256, .f32⟩
  | 4 => ⟨S100000x256, .i1⟩
  | 5 => ⟨S_, .f32⟩
  | 6 => ⟨S_, .f32⟩
  | 7 => ⟨S100000x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x256, .f32⟩
  | 14 => ⟨S100000x10, .f32⟩
  | 15 => ⟨S1x10, .f32⟩
  | 16 => ⟨S100000x10, .f32⟩
  | 17 => ⟨S100000x10, .f32⟩
  | 18 => ⟨S_, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x10, .f32⟩
  | 25 => ⟨S100000x10, .f32⟩
  | 26 => ⟨S100000x10, .f32⟩
  | 27 => ⟨S_, .f32⟩
  | 28 => ⟨S100000, .f32⟩
  | 29 => ⟨S100000x1, .f32⟩
  | 30 => ⟨S100000x1, .f32⟩
  | 31 => ⟨S100000x10, .f32⟩
  | 32 => ⟨S100000x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_cst_1 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_v4 : Ref sig .tc := ⟨.hbm, 27, rfl⟩
abbrev main_call0_v5 : Ref sig .tc := ⟨.hbm, 28, rfl⟩
abbrev main_call0_cst_2 : Ref sig .tc := ⟨.hbm, 29, rfl⟩
abbrev main_call0_v6 : Ref sig .tc := ⟨.hbm, 30, rfl⟩
abbrev main_call0_v7 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_cst_0 : Ref sig .tc := ⟨.hbm, 51, rfl⟩
abbrev main_call1_v2 : Ref sig .tc := ⟨.hbm, 52, rfl⟩
abbrev main_call1_v3 : Ref sig .tc := ⟨.hbm, 53, rfl⟩
abbrev main_call1_cst_1 : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_v4 : Ref sig .tc := ⟨.hbm, 57, rfl⟩
abbrev main_call1_v5 : Ref sig .tc := ⟨.hbm, 58, rfl⟩
abbrev main_call1_cst_2 : Ref sig .tc := ⟨.hbm, 59, rfl⟩
abbrev main_call1_v6 : Ref sig .tc := ⟨.hbm, 60, rfl⟩
abbrev main_call1_v7 : Ref sig .tc := ⟨.hbm, 61, rfl⟩
abbrev main_v18 : Ref sig .tc := ⟨.hbm, 62, rfl⟩
abbrev main_v19 : Ref sig .tc := ⟨.hbm, 63, rfl⟩
abbrev main_c_1 : Ref sig .tc := ⟨.hbm, 64, rfl⟩
abbrev main_v20 : Ref sig .tc := ⟨.hbm, 65, rfl⟩
abbrev main_v21 : Ref sig .tc := ⟨.hbm, 66, rfl⟩
abbrev main_c_2 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_cst_1 : Ref sig .tc := ⟨.hbm, 84, rfl⟩
abbrev main_call2_call0_v0 : Ref sig .tc := ⟨.hbm, 85, rfl⟩
abbrev main_call2_call0_v1 : Ref sig .tc := ⟨.hbm, 86, rfl⟩
abbrev main_call2_v4 : Ref sig .tc := ⟨.hbm, 87, rfl⟩
abbrev main_call2_v5 : Ref sig .tc := ⟨.hbm, 88, rfl⟩
abbrev main_call2_cst_2 : Ref sig .tc := ⟨.hbm, 89, rfl⟩
abbrev main_call2_v6 : Ref sig .tc := ⟨.hbm, 90, rfl⟩
abbrev main_call2_v7 : Ref sig .tc := ⟨.hbm, 91, rfl⟩
abbrev main_v32 : Ref sig .tc := ⟨.hbm, 92, rfl⟩
abbrev main_v33 : Ref sig .tc := ⟨.hbm, 93, rfl⟩
abbrev main_c_3 : Ref sig .tc := ⟨.hbm, 94, rfl⟩
abbrev main_v34 : Ref sig .tc := ⟨.hbm, 95, rfl⟩
abbrev main_v35 : Ref sig .tc := ⟨.hbm, 96, rfl⟩
abbrev main_c_4 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_cst_1 : Ref sig .tc := ⟨.hbm, 114, rfl⟩
abbrev main_call3_call0_v0 : Ref sig .tc := ⟨.hbm, 115, rfl⟩
abbrev main_call3_call0_v1 : Ref sig .tc := ⟨.hbm, 116, rfl⟩
abbrev main_call3_v4 : Ref sig .tc := ⟨.hbm, 117, rfl⟩
abbrev main_call3_v5 : Ref sig .tc := ⟨.hbm, 118, rfl⟩
abbrev main_call3_cst_2 : Ref sig .tc := ⟨.hbm, 119, rfl⟩
abbrev main_call3_v6 : Ref sig .tc := ⟨.hbm, 120, rfl⟩
abbrev main_call3_v7 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_call4_cst : Ref sig .tc := ⟨.hbm, 127, rfl⟩
abbrev main_call4_v0 : Ref sig .tc := ⟨.hbm, 128, rfl⟩
abbrev main_call4_v1 : Ref sig .tc := ⟨.hbm, 129, rfl⟩
abbrev main_call4_cst_0 : Ref sig .tc := ⟨.hbm, 130, rfl⟩
abbrev main_call4_v2 : Ref sig .tc := ⟨.hbm, 131, rfl⟩
abbrev main_call4_v3 : Ref sig .tc := ⟨.hbm, 132, rfl⟩
abbrev main_call4_cst_1 : Ref sig .tc := ⟨.hbm, 133, rfl⟩
abbrev main_call4_call0_v0 : Ref sig .tc := ⟨.hbm, 134, rfl⟩
abbrev main_call4_call0_v1 : Ref sig .tc := ⟨.hbm, 135, rfl⟩
abbrev main_call4_v4 : Ref sig .tc := ⟨.hbm, 136, rfl⟩
abbrev main_call4_v5 : Ref sig .tc := ⟨.hbm, 137, rfl⟩
abbrev main_call4_cst_2 : Ref sig .tc := ⟨.hbm, 138, rfl⟩
abbrev main_call4_v6 : Ref sig .tc := ⟨.hbm, 139, rfl⟩
abbrev main_call4_v7 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_call5_cst : Ref sig .tc := ⟨.hbm, 146, rfl⟩
abbrev main_call5_v0 : Ref sig .tc := ⟨.hbm, 147, rfl⟩
abbrev main_call5_cst_0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_cst_1 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_v56 : Ref sig .tc := ⟨.hbm, 160, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  shapeCasts_S100000x20_S2000000 : S100000x20.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x16_S100000x320 : S2000000x16.ShapeCasts S100000x320
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  shapeCasts_S2000000x32_S100000x640 : S2000000x32.ShapeCasts S100000x640
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  shapeCasts_S2000000x64_S100000x1280 : S2000000x64.ShapeCasts S100000x1280
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x3_S3x16_S100000x16_1_0_0_1_n_n_wf : DotDims.WF S100000x3 S3x16 S100000x16 [1] [0] [0] [1] [] []
  gather_S100000x16_S2000000x1_S2000000x16_1_0_n_n_0_1_116_wf : GatherDims.WF S100000x16 S2000000x1 S2000000x16 [1] [0] [] [0] [] 1 ![1, 16]
  dot_S100000x320_S320x32_S100000x32_1_0_0_1_n_n_wf : DotDims.WF S100000x320 S320x32 S100000x32 [1] [0] [0] [1] [] []
  gather_S100000x32_S2000000x1_S2000000x32_1_0_n_n_0_1_132_wf : GatherDims.WF S100000x32 S2000000x1 S2000000x32 [1] [0] [] [0] [] 1 ![1, 32]
  dot_S100000x640_S640x64_S100000x64_1_0_0_1_n_n_wf : DotDims.WF S100000x640 S640x64 S100000x64 [1] [0] [0] [1] [] []
  gather_S100000x64_S2000000x1_S2000000x64_1_0_n_n_0_1_164_wf : GatherDims.WF S100000x64 S2000000x1 S2000000x64 [1] [0] [] [0] [] 1 ![1, 64]
  dot_S100000x1280_S1280x128_S100000x128_1_0_0_1_n_n_wf : DotDims.WF S100000x1280 S1280x128 S100000x128 [1] [0] [0] [1] [] []
  dot_S100000x128_S128x256_S100000x256_1_0_0_1_n_n_wf : DotDims.WF S100000x128 S128x256 S100000x256 [1] [0] [0] [1] [] []
  dot_S100000x256_S256x10_S100000x10_1_0_0_1_n_n_wf : DotDims.WF S100000x256 S256x10 S100000x10 [1] [0] [0] [1] [] []

variable [Facts₀]

def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def dot_S100000x320_S320x32_S100000x32_1_0_0_1_n_n : DotDims S100000x320 S320x32 S100000x32 where
  lhsContracting := [1]
  rhsContracting := [0]
  lhsNonContracting := [0]
  rhsNonContracting := [1]
  lhsBatch := []
  rhsBatch := []
  wf := dot_S100000x320_S320x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def dot_S100000x640_S640x64_S100000x64_1_0_0_1_n_n : DotDims S100000x640 S640x64 S100000x64 where
  lhsContracting := [1]
  rhsContracting := [0]
  lhsNonContracting := [0]
  rhsNonContracting := [1]
  lhsBatch := []
  rhsBatch := []
  wf := dot_S100000x640_S640x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S100000x1280_S1280x128_S100000x128_1_0_0_1_n_n : DotDims S100000x1280 S1280x128 S100000x128 where
  lhsContracting := [1]
  rhsContracting := [0]
  lhsNonContracting := [0]
  rhsNonContracting := [1]
  lhsBatch := []
  rhsBatch := []
  wf := dot_S100000x1280_S1280x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf

class Facts : Prop extends Facts₀ where

variable [Facts]
-- ==== Proof.Net.lean ====
/-
  The network both programs compute, as functions of whole arrays of extended reals.

  A vertex v of the mesh carries a feature row; a layer is an affine map of rows followed by ELU,
      dense X W b (v, q) = elu (∑ t, X (v, t) · W (t, q) + b q),
  and the last layer is affine only, followed by the logarithm of the softmax along each row. Between three of the
  layers every vertex collects the rows of twenty other vertices (its spiral) side by side; that collecting is a map of
  whole arrays, taken here as a parameter (γ₁ γ₂ γ₃), because nothing below looks inside it.

  Every function here reads row v of its result from row v of its operand only, and that is definitional: the
  rows B·t … B·t + B − 1 of (dense X W b) are dense of those rows of X, by unfolding.
-/
import Idealize.ShloMosaic.PureOps.Ideal
import Idealize.ShloMosaic.Lib.ValueIdx

noncomputable section

namespace Cert.Net

open Idealize.ShloMosaic Idealize.ShloMosaic.ValueIdx

/-- An n × k matrix of extended reals. -/
abbrev Mat (n k : ℕ) : Type := (⟨2, ![n, k]⟩ : Shape).Idx → EReal
/-- A vector of k extended reals. -/
abbrev Row (k : ℕ) : Type := (⟨1, ![k]⟩ : Shape).Idx → EReal

/-- ELU with slope one: z where z > 0, and exp z − 1 elsewhere. The zero and the one are the single-precision
    words both programs carry. -/
def elu (z : EReal) : EReal :=
  Scalar.select (Ideal.cmp .ogt z (Ideal.ofBits .f32 0x00000000#32)) z (Ideal.exp z - Ideal.ofBits .f32 0x3F800000#32)

/-- Rows times a weight matrix plus a bias row. -/
def affine {n k c : ℕ} (X : Mat n k) (W : Mat k c) (b : Row c) : Mat n c :=
  fun j => (∑ t : Fin k, X (ix2 (j 0) t) * W (ix2 t (j 1))) + b (ix1 (j 1))

/-- An affine layer followed by ELU. -/
def dense {n k c : ℕ} (X : Mat n k) (W : Mat k c) (b : Row c) : Mat n c :=
  fun j => elu (affine X W b j)

/-- The largest entry of row v, floored at −∞ twice as both programs do (the fold starts from the word of −∞
    and its result is compared with that word once more). -/
def rowMax {n c : ℕ} (Y : Mat n c) (v : Fin n) : EReal :=
  max (Ideal.ofBits .f32 0xFF800000#32)
    ((Finset.univ : Finset (Fin c)).fold max (Ideal.ofBits .f32 0xFF800000#32) fun t => Y (ix2 v t))

/-- The logarithm of the softmax along each row: the row shifted by its largest entry, minus the logarithm of the sum of
    the shifted row's exponentials. -/
def logSoftmax {n c : ℕ} (Y : Mat n c) : Mat n c :=
  fun j => (Y j - rowMax Y (j 0)) - Ideal.log (∑ t : Fin c, Ideal.exp (Y (ix2 (j 0) t) - rowMax Y (j 0)))

theorem affine_apply {n k c : ℕ} (X : Mat n k) (W : Mat k c) (b : Row c) (p : Fin n) (q : Fin c) :
    affine X W b (ix2 p q) = (∑ t : Fin k, X (ix2 p t) * W (ix2 t q)) + b (ix1 q) := rfl

theorem dense_apply {n k c : ℕ} (X : Mat n k) (W : Mat k c) (b : Row c) (p : Fin n) (q : Fin c) :
    dense X W b (ix2 p q) = elu ((∑ t : Fin k, X (ix2 p t) * W (ix2 t q)) + b (ix1 q)) := rfl

theorem logSoftmax_apply {n c : ℕ} (Y : Mat n c) (p : Fin n) (q : Fin c) :
    logSoftmax Y (ix2 p q)
      = (Y (ix2 p q) - rowMax Y p) - Ideal.log (∑ t : Fin c, Ideal.exp (Y (ix2 p t) - rowMax Y p)) := rfl

/-- The rows B·t … B·t + B − 1 of a matrix. -/
def rowBlock {n k : ℕ} (B t : ℕ) (h : B * t + B ≤ n) (X : Mat n k) : Mat B k :=
  fun j => X (ix2 ⟨B * t + (j 0).val, by have := idx2_lt0 j; omega⟩ (j 1))

theorem rowBlock_affine {n k c : ℕ} (B t : ℕ) (h : B * t + B ≤ n) (X : Mat n k) (W : Mat k c) (b : Row c) :
    rowBlock B t h (affine X W b) = affine (rowBlock B t h X) W b := rfl

theorem rowBlock_dense {n k c : ℕ} (B t : ℕ) (h : B * t + B ≤ n) (X : Mat n k) (W : Mat k c) (b : Row c) :
    rowBlock B t h (dense X W b) = dense (rowBlock B t h X) W b := rfl

theorem rowBlock_logSoftmax {n c : ℕ} (B t : ℕ) (h : B * t + B ≤ n) (Y : Mat n c) :
    rowBlock B t h (logSoftmax Y) = logSoftmax (rowBlock B t h Y) := rfl

/-- The whole network: four ELU layers with the three collecting maps between them, one more ELU layer, the last
    affine layer, and the logarithm of the softmax. -/
def net (γ₁ : Mat 100000 16 → Mat 100000 320) (γ₂ : Mat 100000 32 → Mat 100000 640)
    (γ₃ : Mat 100000 64 → Mat 100000 1280)
    (pos : Mat 100000 3) (W0 : Mat 3 16) (b0 : Row 16) (W1 : Mat 320 32) (b1 : Row 32) (W2 : Mat 640 64) (b2 : Row 64)
    (W3 : Mat 1280 128) (b3 : Row 128) (Wf1 : Mat 128 256) (bf1 : Row 256) (Wf2 : Mat 256 10) (bf2 : Row 10) :
    Mat 100000 10 :=
  logSoftmax (affine (dense (dense (γ₃ (dense (γ₂ (dense (γ₁ (dense pos W0 b0)) W1 b1)) W2 b2)) W3 b3) Wf1 bf1) Wf2 bf2)

end Cert.Net

end
-- ==== Proof.KerChain.lean ====
/-
  The kernel program's result, followed from boundary to boundary.

  The program clips the index array once and reads it again before every collecting step; each of the first three
  regions is one layer, each host stretch between two regions gathers, for every vertex, the rows of its twenty spiral
  vertices side by side, and the last region is the head. So the result buffer at the last boundary holds the network
  of the launch arguments, with the collecting maps read at the clipped indices.

  The four regions' values are taken as hypotheses here (each region's output array after its write-backs is its layer
  of the operand arrays, at any entry contents), so that this module depends on no region's own proof.
-/
import proofs.«400294_j67422396612957_3_alg».proof.Proof.KerRun
import proofs.«400294_j67422396612957_3_alg».proof.Proof.Net
import Idealize.ShloMosaic.Lib.StableHlo.Run

set_option maxRecDepth 16384

noncomputable section

namespace Cert.KerChain

open Idealize.ShloMosaic Idealize.ShloMosaic.TcCoe Idealize.SL.Sem
open Idealize.ShloMosaic.StableHlo
open Cert.KernelIdeal Cert.KernelIdeal.Gen Cert.KerRun

/-! ## The host stretches, at any contents -/

/-- The index array clipped into the table's range and laid out as one long vector. -/
def clipped (idx : IVec S100000x20 32) : IVec S2000000 32 :=
  shapeCast S2000000
    (minsi (broadcastInDim S100000x20 ![] bcast_S_S100000x20 (constantI S_ 32 99999#32))
      (maxsi (broadcastInDim S100000x20 ![] bcast_S_S100000x20 (constantI S_ 32 0#32)) idx))
    shapeCasts_S100000x20_S2000000

/-- The start indices of a collecting step: an index below zero is moved up by the table's length, and the vector is
    laid out as a column. -/
def starts (r : IVec S2000000 32) : IVec S2000000x1 32 :=
  broadcastInDim S2000000x1 ![0] bcast_S2000000_S2000000x1_0
    (select (cmpi .slt r (broadcastInDim S2000000 ![] bcast_S_S2000000 (constantI S_ 32 0#32)))
      (addi r (broadcastInDim S2000000 ![] bcast_S_S2000000 (constantI S_ 32 100000#32))) r)

/-- Rows of a 16-column table at the start indices, twenty to a vertex side by side. -/
def take16 (r : IVec S2000000 32) (X : Cert.Net.Mat 100000 16) : Cert.Net.Mat 100000 320 :=
  shapeCast S100000x320 (Host.gather gather_S100000x16_S2000000x1_S2000000x16_1_0_n_n_0_1_116 X (starts r))
    shapeCasts_S2000000x16_S100000x320
/-- Rows of a 32-column table at the start indices, twenty to a vertex side by side. -/
def take32 (r : IVec S2000000 32) (X : Cert.Net.Mat 100000 32) : Cert.Net.Mat 100000 640 :=
  shapeCast S100000x640 (Host.gather gather_S100000x32_S2000000x1_S2000000x32_1_0_n_n_0_1_132 X (starts r))
    shapeCasts_S2000000x32_S100000x640
/-- Rows of a 64-column table at the start indices, twenty to a vertex side by side. -/
def take64 (r : IVec S2000000 32) (X : Cert.Net.Mat 100000 64) : Cert.Net.Mat 100000 1280 :=
  shapeCast S100000x1280 (Host.gather gather_S100000x64_S2000000x1_S2000000x64_1_0_n_n_0_1_164 X (starts r))
    shapeCasts_S2000000x64_S100000x1280

section Stretches
variable (V : Valuation τ sig (Elt Ideal))

/-- The stretch before the first region leaves the clipped indices in their buffer. -/
theorem stretch0_v1 :
    (StableHlo.after hostOps0_2 (StableHlo.after hostOps0_1 (StableHlo.after hostOps0 V)) (Proc.devRef .tc main_v1) : IVec S2000000 32)
      = clipped (V (Proc.devRef .tc main_arg1)) := by
  after_results
  rfl

/-- The stretch after the first region collects rows of its output. -/
theorem stretch1_out :
    (StableHlo.after hostOps1 V (Proc.devRef .tc main_v10) : Cert.Net.Mat 100000 320)
      = take16 (V (Proc.devRef .tc main_v1)) (V (Proc.devRef .tc main_v2)) := by
  after_results
  rfl
theorem stretch1_v1 : StableHlo.after hostOps1 V (Proc.devRef .tc main_v1) = V (Proc.devRef .tc main_v1) := by
  after_results

/-- The stretch after the second region collects rows of its output. -/
theorem stretch2_out :
    (StableHlo.after hostOps2 V (Proc.devRef .tc main_v19) : Cert.Net.Mat 100000 640)
      = take32 (V (Proc.devRef .tc main_v1)) (V (Proc.devRef .tc main_v11)) := by
  after_results
  rfl
theorem stretch2_v1 : StableHlo.after hostOps2 V (Proc.devRef .tc main_v1) = V (Proc.devRef .tc main_v1) := by
  after_results

/-- The stretch after the third region collects rows of its output. -/
theorem stretch3_out :
    (StableHlo.after hostOps3 V (Proc.devRef .tc main_v28) : Cert.Net.Mat 100000 1280)
      = take64 (V (Proc.devRef .tc main_v1)) (V (Proc.devRef .tc main_v20)) := by
  after_results
  rfl

end Stretches

/-! ## From boundary to boundary -/

section Chain
variable (m : (ℓ : Loc nD τ sig) → Buf (Elt Ideal) ℓ) (ρ : Dev nD → PrngReg)

/-- The clipped indices stay in their buffer up to the last collecting step: no region and no later operation writes it. -/
theorem W4_v1 (c : Dev nD) :
    (W4 m ρ c (Proc.devRef .tc main_v1) : IVec S2000000 32) = clipped (m ((c : Thread nD τ).loc main_arg1)) :=
  (W4_of_ne m ρ c main_v1 (by decide)).trans (stretch0_v1 (W0 m ρ c))
theorem W6_v1 (c : Dev nD) :
    (W6 m ρ c (Proc.devRef .tc main_v1) : IVec S2000000 32) = clipped (m ((c : Thread nD τ).loc main_arg1)) :=
  (W6_of_ne m ρ c main_v1 (by decide)).trans ((stretch1_v1 (W4 m ρ c)).trans (W4_v1 m ρ c))
theorem W8_v1 (c : Dev nD) :
    (W8 m ρ c (Proc.devRef .tc main_v1) : IVec S2000000 32) = clipped (m ((c : Thread nD τ).loc main_arg1)) :=
  (W8_of_ne m ρ c main_v1 (by decide)).trans ((stretch2_v1 (W6 m ρ c)).trans (W6_v1 m ρ c))

-- each region's output array after its write-backs is its layer of the operand arrays, at any entry contents
variable
  (L0 : ∀ (V : (c : Dev nD) → (b : Ref sig .tc) → Buf (Elt Ideal) ((c : Thread nD τ).loc b)) (c : Dev nD),
    ((dat0 (F := Ideal) V c).arrAt 3 cfg0.N : Cert.Net.Mat 100000 16)
      = Cert.Net.dense (V c (Pipeline.arrRef spec0 0)) (V c (Pipeline.arrRef spec0 1)) (V c (Pipeline.arrRef spec0 2)))
  (L1 : ∀ (V : (c : Dev nD) → (b : Ref sig .tc) → Buf (Elt Ideal) ((c : Thread nD τ).loc b)) (c : Dev nD),
    ((dat1 (F := Ideal) V c).arrAt 3 cfg1.N : Cert.Net.Mat 100000 32)
      = Cert.Net.dense (V c (Pipeline.arrRef spec1 0)) (V c (Pipeline.arrRef spec1 1)) (V c (Pipeline.arrRef spec1 2)))
  (L2 : ∀ (V : (c : Dev nD) → (b : Ref sig .tc) → Buf (Elt Ideal) ((c : Thread nD τ).loc b)) (c : Dev nD),
    ((dat2 (F := Ideal) V c).arrAt 3 cfg2.N : Cert.Net.Mat 100000 64)
      = Cert.Net.dense (V c (Pipeline.arrRef spec2 0)) (V c (Pipeline.arrRef spec2 1)) (V c (Pipeline.arrRef spec2 2)))
  (L3 : ∀ (V : (c : Dev nD) → (b : Ref sig .tc) → Buf (Elt Ideal) ((c : Thread nD τ).loc b)) (c : Dev nD),
    ((dat3 (F := Ideal) V c).arrAt 7 cfg3.N : Cert.Net.Mat 100000 10)
      = Cert.Net.logSoftmax (Cert.Net.affine (Cert.Net.dense (Cert.Net.dense (V c (Pipeline.arrRef spec3 0)) (V c (Pipeline.arrRef spec3 1)) (V c (Pipeline.arrRef spec3 2)))
          (V c (Pipeline.arrRef spec3 3)) (V c (Pipeline.arrRef spec3 4))) (V c (Pipeline.arrRef spec3 5)) (V c (Pipeline.arrRef spec3 6))))

include L0 in
/-- After the first region: the first layer of the positions. -/
theorem layer0_out (c : Dev nD) :
    (W4 m ρ c (Proc.devRef .tc main_v2) : Cert.Net.Mat 100000 16)
      = Cert.Net.dense (m ((c : Thread nD τ).loc main_arg0)) (m ((c : Thread nD τ).loc main_arg2)) (m ((c : Thread nD τ).loc main_arg3)) := by
  refine (W4_arr m ρ c 3).trans ((L0 (V3 m ρ) c).trans ?_)
  exact congr (congr (congrArg (Cert.Net.dense (n := 100000) (k := 3) (c := 16)) (W3_main_arg0 m ρ c)) (W3_main_arg2 m ρ c)) (W3_main_arg3 m ρ c)

include L0 in
/-- Before the second region: every vertex's twenty rows of the first layer, side by side. -/
theorem gather1_out (c : Dev nD) :
    (W5 m ρ c (Proc.devRef .tc main_v10) : Cert.Net.Mat 100000 320) = (take16 (clipped (m ((c : Thread nD τ).loc main_arg1))) (Cert.Net.dense (m ((c : Thread nD τ).loc main_arg0)) (m ((c : Thread nD τ).loc main_arg2)) (m ((c : Thread nD τ).loc main_arg3)))) :=
  (stretch1_out (W4 m ρ c)).trans (congr (congrArg take16 (W4_v1 m ρ c)) (layer0_out m ρ L0 c))

include L0 L1 in
/-- After the second region: the second layer. -/
theorem layer1_out (c : Dev nD) :
    (W6 m ρ c (Proc.devRef .tc main_v11) : Cert.Net.Mat 100000 32) = (Cert.Net.dense (take16 (clipped (m ((c : Thread nD τ).loc main_arg1))) (Cert.Net.dense (m ((c : Thread nD τ).loc main_arg0)) (m ((c : Thread nD τ).loc main_arg2)) (m ((c : Thread nD τ).loc main_arg3)))) (m ((c : Thread nD τ).loc main_arg4)) (m ((c : Thread nD τ).loc main_arg5))) := by
  refine (W6_arr m ρ c 3).trans ((L1 (V5 m ρ) c).trans ?_)
  exact congr (congr (congrArg (Cert.Net.dense (n := 100000) (k := 320) (c := 32)) (gather1_out m ρ L0 c)) (W5_main_arg4 m ρ c)) (W5_main_arg5 m ρ c)

include L0 L1 in
/-- Before the third region: every vertex's twenty rows of the second layer, side by side. -/
theorem gather2_out (c : Dev nD) :
    (W7 m ρ c (Proc.devRef .tc main_v19) : Cert.Net.Mat 100000 640) = (take32 (clipped (m ((c : Thread nD τ).loc main_arg1))) (Cert.Net.dense (take16 (clipped (m ((c : Thread nD τ).loc main_arg1))) (Cert.Net.dense (m ((c : Thread nD τ).loc main_arg0)) (m ((c : Thread nD τ).loc main_arg2)) (m ((c : Thread nD τ).loc main_arg3)))) (m ((c : Thread nD τ).loc main_arg4)) (m ((c : Thread nD τ).loc main_arg5)))) :=
  (stretch2_out (W6 m ρ c)).trans (congr (congrArg take32 (W6_v1 m ρ c)) (layer1_out m ρ L0 L1 c))

include L0 L1 L2 in
/-- After the third region: the third layer. -/
theorem layer2_out (c : Dev nD) :
    (W8 m ρ c (Proc.devRef .tc main_v20) : Cert.Net.Mat 100000 64) = (Cert.Net.dense (take32 (clipped (m ((c : Thread nD τ).loc main_arg1))) (Cert.Net.dense (take16 (clipped (m ((c : Thread nD τ).loc main_arg1))) (Cert.Net.dense (m ((c : Thread nD τ).loc main_arg0)) (m ((c : Thread nD τ).loc main_arg2)) (m ((c : Thread nD τ).loc main_arg3)))) (m ((c : Thread nD τ).loc main_arg4)) (m ((c : Thread nD τ).loc main_arg5)))) (m ((c : Thread nD τ).loc main_arg6)) (m ((c : Thread nD τ).loc main_arg7))) := by
  refine (W8_arr m ρ c 3).trans ((L2 (V7 m ρ) c).trans ?_)
  exact congr (congr (congrArg (Cert.Net.dense (n := 100000) (k := 640) (c := 64)) (gather2_out m ρ L0 L1 c)) (W7_main_arg6 m ρ c)) (W7_main_arg7 m ρ c)

include L0 L1 L2 in
/-- Before the last region: every vertex's twenty rows of the third layer, side by side. -/
theorem gather3_out (c : Dev nD) :
    (W9 m ρ c (Proc.devRef .tc main_v28) : Cert.Net.Mat 100000 1280) = (take64 (clipped (m ((c : Thread nD τ).loc main_arg1))) (Cert.Net.dense (take32 (clipped (m ((c : Thread nD τ).loc main_arg1))) (Cert.Net.dense (take16 (clipped (m ((c : Thread nD τ).loc main_arg1))) (Cert.Net.dense (m ((c : Thread nD τ).loc main_arg0)) (m ((c : Thread nD τ).loc main_arg2)) (m ((c : Thread nD τ).loc main_arg3)))) (m ((c : Thread nD τ).loc main_arg4)) (m ((c : Thread nD τ).loc main_arg5)))) (m ((c : Thread nD τ).loc main_arg6)) (m ((c : Thread nD τ).loc main_arg7)))) :=
  (stretch3_out (W8 m ρ c)).trans (congr (congrArg take64 (W8_v1 m ρ c)) (layer2_out m ρ L0 L1 L2 c))

include L0 L1 L2 L3 in
/-- At the last boundary the result buffer holds the network of the launch arguments, the collecting maps read at the
    clipped indices. -/
theorem result_out (c : Dev nD) :
    (W10 m ρ c (Proc.devRef .tc main_v29) : Cert.Net.Mat 100000 10)
      = Cert.Net.net (take16 (clipped (m ((c : Thread nD τ).loc main_arg1)))) (take32 (clipped (m ((c : Thread nD τ).loc main_arg1)))) (take64 (clipped (m ((c : Thread nD τ).loc main_arg1))))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 7).trans ((L3 (V9 m ρ) c).trans ?_)
  exact congrArg (Cert.Net.logSoftmax (n := 100000) (c := 10))
    (congr (congr (congrArg (Cert.Net.affine (n := 100000) (k := 256) (c := 10))
      (congr (congr (congrArg (Cert.Net.dense (n := 100000) (k := 128) (c := 256))
        (congr (congr (congrArg (Cert.Net.dense (n := 100000) (k := 1280) (c := 128)) (gather3_out m ρ L0 L1 L2 c))
          (W9_main_arg8 m ρ c)) (W9_main_arg9 m ρ c)))
        (W9_main_arg10 m ρ c)) (W9_main_arg11 m ρ c)))
      (W9_main_arg12 m ρ c)) (W9_main_arg13 m ρ c))

end Chain

end Cert.KerChain
end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.KerLayer0.lean ====
/-
  The first layer of the network, as the kernel program computes it: fifty grid points, each taking 2000 rows of the
  100000 × 3 array, the whole 3 × 16 weight matrix and the whole bias row, and leaving 2000 rows of the 100000 × 16
  result.

  Four facts make the statement. (1) What one grid point stores is the layer of the three blocks it loaded: entry
  (p, q) is ELU of the sum over t of x(p, t) · w(t, q), plus b(q); the rounding steps are the identity on the
  extended reals, the product into a zero accumulator is that sum, and the bias row cast to one row and repeated
  down the rows reads b(q). (2) The block of rows loaded at point t is rows 2000·t … 2000·t + 1999 of the array,
  and the weight and bias blocks are the whole arrays, because the index maps send t to (t, 0), (0, 0) and (0).
  (3) A layer acts row by row, so rows 2000·t … of the layer of the whole array are the layer of those rows: what
  point t writes back is its block of rows of the layer of the whole array. (4) Row r lies in the block of point
  r / 2000, so the fifty blocks fill the array, which therefore ends holding the layer of the whole arrays.
-/
import proofs.«400294_j67422396612957_3_alg».proof.Proof.Gen.KernelIdeal.Frame
import proofs.«400294_j67422396612957_3_alg».proof.Proof.Net
import proofs.«400294_j67422396612957_3_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KerLayers

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The offsets of a whole two-axis block are zero on both axes. -/
theorem offsets2_layer0 : (![0, 0] : Fin 2 → Nat) = fun _ => 0 := funext fun a => by fin_cases a <;> rfl

/-- The offset of a whole one-axis block is zero. -/
theorem offsets1_layer0 : (![0] : Fin 1 → Nat) = fun _ => 0 := funext fun a => by fin_cases a; rfl

/-- What a grid point stores is the layer of its three blocks. At (p, q) both sides are ELU of a sum of two terms:
    the matrix product, which is the sum over the contracted axis, and the bias, which the cast to one row and the
    repetition down the rows read at q. -/
theorem pay0_eq (x : Vec Ideal S2000x3 .f32) (w : Vec Ideal S3x16 .f32) (b : Vec Ideal S16 .f32) :
    k0_pay1 (F := Ideal) x w b = Cert.Net.dense x w b := by
  funext j
  obtain ⟨p, q, rfl⟩ : ∃ (p : Fin 2000) (q : Fin 16), j = ix2 p q := ⟨j 0, j 1, eq_ix2 j⟩
  unfold k0_pay1
  refine congrArg Cert.Net.elu (congrArg₂ (· + ·) ?_ ?_)
  · exact Cert.Lib.matmul_plain_apply _ rfl rfl rfl rfl rfl rfl none _ _ p q
  · exact (broadcastTo_1b_ab_apply _ _ p q).trans (shapeCast_a_1a_apply b _ 0 q)

/-- The index maps at point t: the rows' blocks and the result's blocks are numbered (t, 0); the weight matrix and the
    bias have the one block (0, 0), (0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The last row of point t's block is inside the array: 2000 · t + 2000 ≤ 100000 for t < 50. -/
theorem rows_le0 (t : Fin cfg0.N) : 2000 * t.val + 2000 ≤ 100000 := by
  have h : t.val < 50 := (show cfg0.N = 50 from N_0) ▸ t.isLt
  omega

/-- The block of rows loaded at point t is rows 2000·t … 2000·t + 1999 of the array: a block's coordinate is its
    number times its size plus the coordinate inside it. -/
theorem rowsBlk0 (c : Dev nD) (t : Fin cfg0.N) :
    (iblk0 V c 0 t : Vec Ideal S2000x3 .f32)
      = Cert.Net.rowBlock 2000 t.val (rows_le0 t) (V c (Pipeline.arrRef spec0 0)) := by
  obtain ⟨e0, e1, -⟩ := index_facts0 t
  funext y
  unfold iblk0
  rw [View.read_apply]
  show V c (Pipeline.arrRef spec0 0) (((cfg0.win 0).blk t).view.emb y) = V c (Pipeline.arrRef spec0 0) (ix2 ⟨2000 * t.val + (y 0).val, _⟩ (y 1))
  congr 1
  funext a
  apply Fin.ext
  match a with
  | ⟨0, _⟩ => show win0_0.index t (0 : Fin 2) * 2000 + 1 * (y 0).val = 2000 * t.val + (y 0).val; omega
  | ⟨1, _⟩ => show win0_0.index t (1 : Fin 2) * 3 + 1 * (y 1).val = (y 1).val; omega

/-- The weight block at any point is the whole weight matrix: its one block is numbered (0, 0). -/
theorem weightBlk0 (c : Dev nD) (t : Fin cfg0.N) :
    (iblk0 V c 1 t : Vec Ideal S3x16 .f32) = (V c (Pipeline.arrRef spec0 1) : Cert.Net.Mat 3 16) := by
  obtain ⟨-, -, e0, e1, -⟩ := index_facts0 t
  funext y
  unfold iblk0
  rw [View.read_apply]
  show V c (Pipeline.arrRef spec0 1) (((cfg0.win 1).blk t).view.emb y) = V c (Pipeline.arrRef spec0 1) y
  congr 1
  funext a
  apply Fin.ext
  match a with
  | ⟨0, _⟩ => show win0_1.index t (0 : Fin 2) * 3 + 1 * (y 0).val = (y 0).val; omega
  | ⟨1, _⟩ => show win0_1.index t (1 : Fin 2) * 16 + 1 * (y 1).val = (y 1).val; omega

/-- The bias block at any point is the whole bias row: its one block is numbered (0). -/
theorem biasBlk0 (c : Dev nD) (t : Fin cfg0.N) :
    (iblk0 V c 2 t : Vec Ideal S16 .f32) = (V c (Pipeline.arrRef spec0 2) : Cert.Net.Row 16) := by
  obtain ⟨-, -, -, -, e0, -⟩ := index_facts0 t
  funext y
  unfold iblk0
  rw [View.read_apply]
  show V c (Pipeline.arrRef spec0 2) (((cfg0.win 2).blk t).view.emb y) = V c (Pipeline.arrRef spec0 2) y
  congr 1
  funext a
  apply Fin.ext
  match a with
  | ⟨0, _⟩ => show win0_2.index t (0 : Fin 1) * 16 + 1 * (y 0).val = (y 0).val; omega

/-- The layer of the three operand arrays as the region finds them. -/
abbrev layerOut0 (c : Dev nD) : Cert.Net.Mat 100000 16 :=
  Cert.Net.dense (V c (Pipeline.arrRef spec0 0)) (V c (Pipeline.arrRef spec0 1)) (V c (Pipeline.arrRef spec0 2))

/-- What point t writes back is its block of rows of the layer of the whole arrays: the stored block is the layer of
    rows 2000·t … of the first operand, and a layer of a block of rows is that block of rows of the layer. -/
theorem flushed0 (c : Dev nD) (t : Fin cfg0.N) :
    (dat0 (F := Ideal) V c).flushed 3 t = ((cfg0.win 3).blk t).view.read (Elt Ideal) (layerOut0 V c) := by
  show (cfg0.win 3).cut (grid0.coords t) ((dat0 (F := Ideal) V c).after 3 t) = _
  rw [after0_3]
  unfold out0_3
  rw [View.canon_unit_zero offsets2_layer0]
  simp only [View.ld_unit_zero (S := S2000x3) offsets2_layer0, View.ld_unit_zero (S := S3x16) offsets2_layer0,
    View.ld_unit_zero (S := S16) offsets1_layer0]
  rw [rowsBlk0 V c t, weightBlk0 V c t, biasBlk0 V c t, pay0_eq, ← Cert.Net.rowBlock_dense]
  obtain ⟨-, -, -, -, -, e0, e1⟩ := index_facts0 t
  funext y
  rw [View.read_apply]
  show layerOut0 V c (ix2 ⟨2000 * t.val + (y 0).val, _⟩ (y 1)) = layerOut0 V c (((cfg0.win 3).blk t).view.emb y)
  congr 1
  funext a
  apply Fin.ext
  match a with
  | ⟨0, _⟩ => show 2000 * t.val + (y 0).val = win0_3.index t (0 : Fin 2) * 2000 + 1 * (y 0).val; omega
  | ⟨1, _⟩ => show (y 1).val = win0_3.index t (1 : Fin 2) * 16 + 1 * (y 1).val; omega

/-- An entry of the result array is in point t's block exactly when each coordinate is in the block's range. -/
theorem mem_blk0 (t : Fin cfg0.N) (i : S100000x16.Idx) :
    i ∈ ((cfg0.win 3).blk t).view.set ↔ ∀ a : Fin 2, win0_3.index t a * S2000x16.size a ≤ (i a).val ∧ (i a).val < win0_3.index t a * S2000x16.size a + S2000x16.size a := by
  show i ∈ ((View.whole main_v2).slice (win0_3.rect t)).set ↔ _
  rw [View.set_slice_whole, Rect.mem_set_unit]
  exact Iff.rfl

/-- Every entry of the result array is in some point's block: row r is in the block of point r / 2000. -/
theorem covered0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  have ht : t.val = (i 0).val / 2000 := rfl
  obtain ⟨-, -, -, -, -, e0, e1⟩ := index_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 16 ≤ (i 1).val ∧ (i 1).val < win0_3.index t (1 : Fin 2) * 16 + 16; omega

/-- After the fifty write-backs the result array is the layer of the three operand arrays as the region found them. -/
theorem layer0 (c : Dev nD) :
    ((dat0 (F := Ideal) V c).arrAt 3 cfg0.N : Cert.Net.Mat 100000 16)
      = Cert.Net.dense (V c (Pipeline.arrRef spec0 0)) (V c (Pipeline.arrRef spec0 1)) (V c (Pipeline.arrRef spec0 2)) :=
  (dat0 (F := Ideal) V c).arrAt_eq_of_cover 3 (layerOut0 V c) (fun t _ => flushed0 V c t) covered0

end Cert.KerLayers

end
-- ==== Proof.KerLayer1.lean ====
/-
  The second layer of the network, as the kernel program computes it: fifty grid points, each taking 2000 rows of the
  100000 × 320 array, the whole 320 × 32 weight matrix and the whole bias row, and leaving 2000 rows of the
  100000 × 32 result.

  Four facts make the statement. (1) What one grid point stores is the layer of the three blocks it loaded: entry
  (p, q) is ELU of the sum over t of x(p, t) · w(t, q), plus b(q); the cast of the rows' block to its own shape and
  the rounding steps are the identity on the extended reals, the product into a zero accumulator is that sum, and the
  bias row cast to one row and repeated down the rows reads b(q). (2) The block of rows loaded at point t is rows
  2000·t … 2000·t + 1999 of the array, and the weight and bias blocks are the whole arrays, because the index maps
  send t to (t, 0), (0, 0) and (0). (3) A layer acts row by row, so rows 2000·t … of the layer of the whole array are
  the layer of those rows: what point t writes back is its block of rows of the layer of the whole array. (4) Row r
  lies in the block of point r / 2000, so the fifty blocks fill the array, which therefore ends holding the layer of
  the whole arrays.
-/
import proofs.«400294_j67422396612957_3_alg».proof.Proof.Gen.KernelIdeal.Frame
import proofs.«400294_j67422396612957_3_alg».proof.Proof.Net
import proofs.«400294_j67422396612957_3_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KerLayers

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The offsets of a whole two-axis block are zero on both axes. -/
theorem offsets2_layer1 : (![0, 0] : Fin 2 → Nat) = fun _ => 0 := funext fun a => by fin_cases a <;> rfl

/-- The offset of a whole one-axis block is zero. -/
theorem offsets1_layer1 : (![0] : Fin 1 → Nat) = fun _ => 0 := funext fun a => by fin_cases a; rfl

/-- What a grid point stores is the layer of its three blocks. At (p, q) both sides are ELU of a sum of two terms:
    the matrix product, which is the sum over the contracted axis (its left factor read through a cast to its own
    shape, which changes nothing), and the bias, which the cast to one row and the repetition down the rows read
    at q. -/
theorem pay1_eq (x : Vec Ideal S2000x320 .bf16) (w : Vec Ideal S320x32 .f32) (b : Vec Ideal S32 .f32) :
    k1_pay1 (F := Ideal) x w b = Cert.Net.dense x w b := by
  funext j
  obtain ⟨p, q, rfl⟩ : ∃ (p : Fin 2000) (q : Fin 32), j = ix2 p q := ⟨j 0, j 1, eq_ix2 j⟩
  unfold k1_pay1
  refine congrArg Cert.Net.elu (congrArg₂ (· + ·) ?_ ?_)
  · exact (Cert.Lib.matmul_plain_apply _ rfl rfl rfl rfl rfl rfl none _ _ p q).trans
      (Finset.sum_congr rfl fun k _ => congrArg (· * w (ix2 k q)) (congrFun (shapeCast_self x _) (ix2 p k)))
  · exact (broadcastTo_1b_ab_apply _ _ p q).trans (shapeCast_a_1a_apply b _ 0 q)

/-- The index maps at point t: the rows' blocks and the result's blocks are numbered (t, 0); the weight matrix and the
    bias have the one block (0, 0), (0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The last row of point t's block is inside the array: 2000 · t + 2000 ≤ 100000 for t < 50. -/
theorem rows_le1 (t : Fin cfg1.N) : 2000 * t.val + 2000 ≤ 100000 := by
  have h : t.val < 50 := (show cfg1.N = 50 from N_1) ▸ t.isLt
  omega

/-- The block of rows loaded at point t is rows 2000·t … 2000·t + 1999 of the array: a block's coordinate is its
    number times its size plus the coordinate inside it. -/
theorem rowsBlk1 (c : Dev nD) (t : Fin cfg1.N) :
    (iblk1 V c 0 t : Vec Ideal S2000x320 .bf16)
      = Cert.Net.rowBlock 2000 t.val (rows_le1 t) (V c (Pipeline.arrRef spec1 0)) := by
  obtain ⟨e0, e1, -⟩ := index_facts1 t
  funext y
  unfold iblk1
  rw [View.read_apply]
  show V c (Pipeline.arrRef spec1 0) (((cfg1.win 0).blk t).view.emb y) = V c (Pipeline.arrRef spec1 0) (ix2 ⟨2000 * t.val + (y 0).val, _⟩ (y 1))
  congr 1
  funext a
  apply Fin.ext
  match a with
  | ⟨0, _⟩ => show win1_0.index t (0 : Fin 2) * 2000 + 1 * (y 0).val = 2000 * t.val + (y 0).val; omega
  | ⟨1, _⟩ => show win1_0.index t (1 : Fin 2) * 320 + 1 * (y 1).val = (y 1).val; omega

/-- The weight block at any point is the whole weight matrix: its one block is numbered (0, 0). -/
theorem weightBlk1 (c : Dev nD) (t : Fin cfg1.N) :
    (iblk1 V c 1 t : Vec Ideal S320x32 .f32) = (V c (Pipeline.arrRef spec1 1) : Cert.Net.Mat 320 32) := by
  obtain ⟨-, -, e0, e1, -⟩ := index_facts1 t
  funext y
  unfold iblk1
  rw [View.read_apply]
  show V c (Pipeline.arrRef spec1 1) (((cfg1.win 1).blk t).view.emb y) = V c (Pipeline.arrRef spec1 1) y
  congr 1
  funext a
  apply Fin.ext
  match a with
  | ⟨0, _⟩ => show win1_1.index t (0 : Fin 2) * 320 + 1 * (y 0).val = (y 0).val; omega
  | ⟨1, _⟩ => show win1_1.index t (1 : Fin 2) * 32 + 1 * (y 1).val = (y 1).val; omega

/-- The bias block at any point is the whole bias row: its one block is numbered (0). -/
theorem biasBlk1 (c : Dev nD) (t : Fin cfg1.N) :
    (iblk1 V c 2 t : Vec Ideal S32 .f32) = (V c (Pipeline.arrRef spec1 2) : Cert.Net.Row 32) := by
  obtain ⟨-, -, -, -, e0, -⟩ := index_facts1 t
  funext y
  unfold iblk1
  rw [View.read_apply]
  show V c (Pipeline.arrRef spec1 2) (((cfg1.win 2).blk t).view.emb y) = V c (Pipeline.arrRef spec1 2) y
  congr 1
  funext a
  apply Fin.ext
  match a with
  | ⟨0, _⟩ => show win1_2.index t (0 : Fin 1) * 32 + 1 * (y 0).val = (y 0).val; omega

/-- The layer of the three operand arrays as the region finds them. -/
abbrev layerOut1 (c : Dev nD) : Cert.Net.Mat 100000 32 :=
  Cert.Net.dense (V c (Pipeline.arrRef spec1 0)) (V c (Pipeline.arrRef spec1 1)) (V c (Pipeline.arrRef spec1 2))

/-- What point t writes back is its block of rows of the layer of the whole arrays: the stored block is the layer of
    rows 2000·t … of the first operand, and a layer of a block of rows is that block of rows of the layer. -/
theorem flushed1 (c : Dev nD) (t : Fin cfg1.N) :
    (dat1 (F := Ideal) V c).flushed 3 t = ((cfg1.win 3).blk t).view.read (Elt Ideal) (layerOut1 V c) := by
  show (cfg1.win 3).cut (grid1.coords t) ((dat1 (F := Ideal) V c).after 3 t) = _
  rw [after1_3]
  unfold out1_3
  rw [View.canon_unit_zero offsets2_layer1]
  simp only [View.ld_unit_zero (S := S2000x320) offsets2_layer1, View.ld_unit_zero (S := S320x32) offsets2_layer1,
    View.ld_unit_zero (S := S32) offsets1_layer1]
  rw [rowsBlk1 V c t, weightBlk1 V c t, biasBlk1 V c t, pay1_eq, ← Cert.Net.rowBlock_dense]
  obtain ⟨-, -, -, -, -, e0, e1⟩ := index_facts1 t
  funext y
  rw [View.read_apply]
  show layerOut1 V c (ix2 ⟨2000 * t.val + (y 0).val, _⟩ (y 1)) = layerOut1 V c (((cfg1.win 3).blk t).view.emb y)
  congr 1
  funext a
  apply Fin.ext
  match a with
  | ⟨0, _⟩ => show 2000 * t.val + (y 0).val = win1_3.index t (0 : Fin 2) * 2000 + 1 * (y 0).val; omega
  | ⟨1, _⟩ => show (y 1).val = win1_3.index t (1 : Fin 2) * 32 + 1 * (y 1).val; omega

/-- An entry of the result array is in point t's block exactly when each coordinate is in the block's range. -/
theorem mem_blk1 (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v11).slice (win1_3.rect t)).set ↔ _
  rw [View.set_slice_whole, Rect.mem_set_unit]
  exact Iff.rfl

/-- Every entry of the result array is in some point's block: row r is in the block of point r / 2000. -/
theorem covered1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 50 := N_1
  let t : Fin cfg1.N := ⟨(i 0).val / 2000, by rw [hN]; omega⟩
  have ht : t.val = (i 0).val / 2000 := rfl
  obtain ⟨-, -, -, -, -, e0, e1⟩ := index_facts1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 32 ≤ (i 1).val ∧ (i 1).val < win1_3.index t (1 : Fin 2) * 32 + 32; omega

/-- After the fifty write-backs the result array is the layer of the three operand arrays as the region found them. -/
theorem layer1 (c : Dev nD) :
    ((dat1 (F := Ideal) V c).arrAt 3 cfg1.N : Cert.Net.Mat 100000 32)
      = Cert.Net.dense (V c (Pipeline.arrRef spec1 0)) (V c (Pipeline.arrRef spec1 1)) (V c (Pipeline.arrRef spec1 2)) :=
  (dat1 (F := Ideal) V c).arrAt_eq_of_cover 3 (layerOut1 V c) (fun t _ => flushed1 V c t) covered1

end Cert.KerLayers

end
-- ==== Proof.KerLayer2.lean ====
/-
  The third layer of the network, as the kernel program computes it: fifty grid points, each taking 2000 rows of the
  100000 × 640 array, the whole 640 × 64 weight matrix and the whole bias row, and leaving 2000 rows of the
  100000 × 64 result.

  Four facts make the statement. (1) What one grid point stores is the layer of the three blocks it loaded: entry
  (p, q) is ELU of the sum over t of x(p, t) · w(t, q), plus b(q); the cast of the rows' block to its own shape and
  the rounding steps are the identity on the extended reals, the product into a zero accumulator is that sum, and the
  bias row cast to one row and repeated down the rows reads b(q). (2) The block of rows loaded at point t is rows
  2000·t … 2000·t + 1999 of the array, and the weight and bias blocks are the whole arrays, because the index maps
  send t to (t, 0), (0, 0) and (0). (3) A layer acts row by row, so rows 2000·t … of the layer of the whole array are
  the layer of those rows: what point t writes back is its block of rows of the layer of the whole array. (4) Row r
  lies in the block of point r / 2000, so the fifty blocks fill the array, which therefore ends holding the layer of
  the whole arrays.
-/
import proofs.«400294_j67422396612957_3_alg».proof.Proof.Gen.KernelIdeal.Frame
import proofs.«400294_j67422396612957_3_alg».proof.Proof.Net
import proofs.«400294_j67422396612957_3_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KerLayers

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The offsets of a whole two-axis block are zero on both axes. -/
theorem offsets2_layer2 : (![0, 0] : Fin 2 → Nat) = fun _ => 0 := funext fun a => by fin_cases a <;> rfl

/-- The offset of a whole one-axis block is zero. -/
theorem offsets1_layer2 : (![0] : Fin 1 → Nat) = fun _ => 0 := funext fun a => by fin_cases a; rfl

/-- What a grid point stores is the layer of its three blocks. At (p, q) both sides are ELU of a sum of two terms:
    the matrix product, which is the sum over the contracted axis (its left factor read through a cast to its own
    shape, which changes nothing), and the bias, which the cast to one row and the repetition down the rows read
    at q. -/
theorem pay2_eq (x : Vec Ideal S2000x640 .bf16) (w : Vec Ideal S640x64 .f32) (b : Vec Ideal S64 .f32) :
    k2_pay1 (F := Ideal) x w b = Cert.Net.dense x w b := by
  funext j
  obtain ⟨p, q, rfl⟩ : ∃ (p : Fin 2000) (q : Fin 64), j = ix2 p q := ⟨j 0, j 1, eq_ix2 j⟩
  unfold k2_pay1
  refine congrArg Cert.Net.elu (congrArg₂ (· + ·) ?_ ?_)
  · exact (Cert.Lib.matmul_plain_apply _ rfl rfl rfl rfl rfl rfl none _ _ p q).trans
      (Finset.sum_congr rfl fun k _ => congrArg (· * w (ix2 k q)) (congrFun (shapeCast_self x _) (ix2 p k)))
  · exact (broadcastTo_1b_ab_apply _ _ p q).trans (shapeCast_a_1a_apply b _ 0 q)

/-- The index maps at point t: the rows' blocks and the result's blocks are numbered (t, 0); the weight matrix and the
    bias have the one block (0, 0), (0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The last row of point t's block is inside the array: 2000 · t + 2000 ≤ 100000 for t < 50. -/
theorem rows_le2 (t : Fin cfg2.N) : 2000 * t.val + 2000 ≤ 100000 := by
  have h : t.val < 50 := (show cfg2.N = 50 from N_2) ▸ t.isLt
  omega

/-- The block of rows loaded at point t is rows 2000·t … 2000·t + 1999 of the array: a block's coordinate is its
    number times its size plus the coordinate inside it. -/
theorem rowsBlk2 (c : Dev nD) (t : Fin cfg2.N) :
    (iblk2 V c 0 t : Vec Ideal S2000x640 .bf16)
      = Cert.Net.rowBlock 2000 t.val (rows_le2 t) (V c (Pipeline.arrRef spec2 0)) := by
  obtain ⟨e0, e1, -⟩ := index_facts2 t
  funext y
  unfold iblk2
  rw [View.read_apply]
  show V c (Pipeline.arrRef spec2 0) (((cfg2.win 0).blk t).view.emb y) = V c (Pipeline.arrRef spec2 0) (ix2 ⟨2000 * t.val + (y 0).val, _⟩ (y 1))
  congr 1
  funext a
  apply Fin.ext
  match a with
  | ⟨0, _⟩ => show win2_0.index t (0 : Fin 2) * 2000 + 1 * (y 0).val = 2000 * t.val + (y 0).val; omega
  | ⟨1, _⟩ => show win2_0.index t (1 : Fin 2) * 640 + 1 * (y 1).val = (y 1).val; omega

/-- The weight block at any point is the whole weight matrix: its one block is numbered (0, 0). -/
theorem weightBlk2 (c : Dev nD) (t : Fin cfg2.N) :
    (iblk2 V c 1 t : Vec Ideal S640x64 .f32) = (V c (Pipeline.arrRef spec2 1) : Cert.Net.Mat 640 64) := by
  obtain ⟨-, -, e0, e1, -⟩ := index_facts2 t
  funext y
  unfold iblk2
  rw [View.read_apply]
  show V c (Pipeline.arrRef spec2 1) (((cfg2.win 1).blk t).view.emb y) = V c (Pipeline.arrRef spec2 1) y
  congr 1
  funext a
  apply Fin.ext
  match a with
  | ⟨0, _⟩ => show win2_1.index t (0 : Fin 2) * 640 + 1 * (y 0).val = (y 0).val; omega
  | ⟨1, _⟩ => show win2_1.index t (1 : Fin 2) * 64 + 1 * (y 1).val = (y 1).val; omega

/-- The bias block at any point is the whole bias row: its one block is numbered (0). -/
theorem biasBlk2 (c : Dev nD) (t : Fin cfg2.N) :
    (iblk2 V c 2 t : Vec Ideal S64 .f32) = (V c (Pipeline.arrRef spec2 2) : Cert.Net.Row 64) := by
  obtain ⟨-, -, -, -, e0, -⟩ := index_facts2 t
  funext y
  unfold iblk2
  rw [View.read_apply]
  show V c (Pipeline.arrRef spec2 2) (((cfg2.win 2).blk t).view.emb y) = V c (Pipeline.arrRef spec2 2) y
  congr 1
  funext a
  apply Fin.ext
  match a with
  | ⟨0, _⟩ => show win2_2.index t (0 : Fin 1) * 64 + 1 * (y 0).val = (y 0).val; omega

/-- The layer of the three operand arrays as the region finds them. -/
abbrev layerOut2 (c : Dev nD) : Cert.Net.Mat 100000 64 :=
  Cert.Net.dense (V c (Pipeline.arrRef spec2 0)) (V c (Pipeline.arrRef spec2 1)) (V c (Pipeline.arrRef spec2 2))

/-- What point t writes back is its block of rows of the layer of the whole arrays: the stored block is the layer of
    rows 2000·t … of the first operand, and a layer of a block of rows is that block of rows of the layer. -/
theorem flushed2 (c : Dev nD) (t : Fin cfg2.N) :
    (dat2 (F := Ideal) V c).flushed 3 t = ((cfg2.win 3).blk t).view.read (Elt Ideal) (layerOut2 V c) := by
  show (cfg2.win 3).cut (grid2.coords t) ((dat2 (F := Ideal) V c).after 3 t) = _
  rw [after2_3]
  unfold out2_3
  rw [View.canon_unit_zero offsets2_layer2]
  simp only [View.ld_unit_zero (S := S2000x640) offsets2_layer2, View.ld_unit_zero (S := S640x64) offsets2_layer2,
    View.ld_unit_zero (S := S64) offsets1_layer2]
  rw [rowsBlk2 V c t, weightBlk2 V c t, biasBlk2 V c t, pay2_eq, ← Cert.Net.rowBlock_dense]
  obtain ⟨-, -, -, -, -, e0, e1⟩ := index_facts2 t
  funext y
  rw [View.read_apply]
  show layerOut2 V c (ix2 ⟨2000 * t.val + (y 0).val, _⟩ (y 1)) = layerOut2 V c (((cfg2.win 3).blk t).view.emb y)
  congr 1
  funext a
  apply Fin.ext
  match a with
  | ⟨0, _⟩ => show 2000 * t.val + (y 0).val = win2_3.index t (0 : Fin 2) * 2000 + 1 * (y 0).val; omega
  | ⟨1, _⟩ => show (y 1).val = win2_3.index t (1 : Fin 2) * 64 + 1 * (y 1).val; omega

/-- An entry of the result array is in point t's block exactly when each coordinate is in the block's range. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v20).slice (win2_3.rect t)).set ↔ _
  rw [View.set_slice_whole, Rect.mem_set_unit]
  exact Iff.rfl

/-- Every entry of the result array is in some point's block: row r is in the block of point r / 2000. -/
theorem covered2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  have ht : t.val = (i 0).val / 2000 := rfl
  obtain ⟨-, -, -, -, -, e0, e1⟩ := index_facts2 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- After the fifty write-backs the result array is the layer of the three operand arrays as the region found them. -/
theorem layer2 (c : Dev nD) :
    ((dat2 (F := Ideal) V c).arrAt 3 cfg2.N : Cert.Net.Mat 100000 64)
      = Cert.Net.dense (V c (Pipeline.arrRef spec2 0)) (V c (Pipeline.arrRef spec2 1)) (V c (Pipeline.arrRef spec2 2)) :=
  (dat2 (F := Ideal) V c).arrAt_eq_of_cover 3 (layerOut2 V c) (fun t _ => flushed2 V c t) covered2

end Cert.KerLayers

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.LibAttnOps.lean ====
/-
  General lemmas: four vector operations of an attention body read at an index on the extended reals, for any sizes.

  * a matrix product contracting the FIRST axis of both operands, `[K, M] × [K, N] → [M, N]` (queries against keys, both
    stored channels-first): entry `(p, q)` is `∑ k, l[k, p] · r[k, q]`;
  * a matrix product contracting the SECOND axis of both operands, `[M, K] × [N, K] → [M, N]` (weights against values stored
    channels-first): entry `(p, q)` is `∑ k, l[p, k] · r[q, k]`;
  * a row maximum, `multi_reduction <maximumf>` of an `[a, b]` array over axis 1: entry `i` is the fold of `max` from the
    accumulator's value over row `i`;
  * a row sum, `multi_reduction <add>` over axis 1: entry `i` is `∑ k, src[i, k]`.

  The two products go the same way: the record of dimension numbers is replaced by the literal one with those lists, the
  operand indices at a result index and a contraction index are read coordinate by coordinate (the contracted axis
  carries the contraction index's one coordinate, the kept axis the result's row or column), and the sum over the
  one-axis contraction shape is re-indexed by that axis's coordinate. The two reductions read the library's one-axis
  reduction laws at axis 1 of a rank-2 shape, where the index inserted over row `i` at coordinate `k` is `(i, k)`.
-/
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

/-! ## Contracting axis 0 of both operands -/

namespace TN

/-- The dimension numbers contracting axis 0 with axis 0 as a literal record; `wf` are their conditions. -/
abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

/-- The left operand's row is the contracted coordinate. -/
theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

/-- The left operand's column is the result's row. -/
theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

/-- The right operand's row is the contracted coordinate. -/
theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

/-- The right operand's column is the result's column. -/
theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

/-- The product of the literal record at `(p, q)`. -/
theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

/-- `[K, M] × [K, N]` contracting axis 0 of both, into a zero accumulator, at `(p, q)`. -/
theorem matmul_tn_apply {M K N : Nat} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 k p) * r (ix2 k q) := by
  obtain ⟨lc, rc, ln, rn, lb, rb, wf⟩ := d
  simp only at h1 h2 h3 h4 h5 h6
  subst h1 h2 h3 h4 h5 h6
  exact TN.matmul_dims_apply wf prec l r p q

/-! ## Contracting axis 1 of both operands -/

namespace NT

/-- The dimension numbers contracting axis 1 with axis 1 as a literal record; `wf` are their conditions. -/
abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the result's row. -/
theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

/-- The left operand's column is the contracted coordinate. -/
theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

/-- The right operand's row is the result's column. -/
theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

/-- The right operand's column is the contracted coordinate. -/
theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

/-- The product of the literal record at `(p, q)`. -/
theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

/-- `[M, K] × [N, K]` contracting axis 1 of both, into a zero accumulator, at `(p, q)`. -/
theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

/-! ## Reductions over axis 1 of a rank-2 array -/

/-- Over row `i`, the index inserted at coordinate `k` of axis 1 is `(i, k)`. -/
theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

/-- The row maximum of an `[a, b]` array at row `i`: the fold of `max` from the accumulator's value over the row. -/
theorem rowmax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i) : Fin b → EReal) = fun k => src (ix2 i k) :=
    funext fun k => congrArg src (lift_row h i k)
  exact congrArg (fun f : Fin b → EReal => (Finset.univ : Finset (Fin b)).fold max (Ideal.ofBits φ acc) f) e

/-- The row sum of an `[a, b]` array at row `i`. -/
theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

end Cert.LibAttnOps

end
-- ==== Proof.KerHead.lean ====
/-
  The last call of the kernel program: on each block of 2000 rows of the collected features, two affine layers with
  ELU, a third affine layer, and the logarithm of the softmax along each row; fifty blocks make up the array.

  Three things are shown. First, on whole blocks the body's arithmetic is the specification's: a product into a zero
  accumulator read at (p, q) is the sum over the contracted axis, the bias cast to one row and laid along the rows
  reads its entry of column q, and the select on "z > 0" between z and exp z − 1 is ELU; the row maximum floored at −∞
  and the row sum of exponentials, each kept as a column and laid along the row, give the logarithm of the softmax.
  Second, the block of point t of the first operand is rows 2000·t … 2000·t + 1999 of the array, and the other six
  operands are read whole at every point. Third, every layer reads row v of its result from row v of its operand only,
  so the block a point writes back is that block of rows of the whole-array result; row r lies in the block of point
  r / 2000, so the fifty blocks cover the array.
-/
import proofs.«400294_j67422396612957_3_alg».proof.Proof.Gen.KernelIdeal.Frame
import proofs.«400294_j67422396612957_3_alg».proof.Proof.Net
import proofs.«400294_j67422396612957_3_alg».proof.Proof.LibPlainMatmul
import proofs.«400294_j67422396612957_3_alg».proof.Proof.LibKeepdimsColumn
import proofs.«400294_j67422396612957_3_alg».proof.Proof.LibAttnOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KerLayers

open Idealize.ShloMosaic Idealize.ShloMosaic.TcCoe Idealize.SL.Sem Cert.KernelIdeal Cert.KernelIdeal.Gen
open Idealize.ShloMosaic.ValueIdx
open Idealize.ShloMosaic.Pipeline (Dat)

namespace HeadRegion

/-! ## One layer on a block, for any sizes -/

section Layer
variable {m k c : ℕ}

/-- A bias of c entries cast to one row and laid along m rows reads, at (p, q), its entry q. -/
theorem biasRows_apply {α : Type} (b : (⟨1, ![c]⟩ : Shape).Idx → α)
    (hc : (⟨1, ![c]⟩ : Shape).ShapeCasts ⟨2, ![1, c]⟩) (hb : (⟨2, ![1, c]⟩ : Shape).Broadcasts ⟨2, ![m, c]⟩)
    (p : Fin m) (q : Fin c) :
    broadcastTo ⟨2, ![m, c]⟩ (shapeCast ⟨2, ![1, c]⟩ b hc) hb (ix2 p q) = b (ix1 q) := by
  refine (broadcastTo_apply (shapeCast ⟨2, ![1, c]⟩ b hc) hb (ix2 p q) (ix2 (0 : Fin 1) q) fun a => ?_).trans ?_
  · match a with
    | ⟨0, _⟩ => rfl
    | ⟨1, _⟩ =>
      show q.val = if c = 1 then 0 else q.val
      split
      · have := q.isLt; omega
      · rfl
  · refine shapeCast_apply b hc (ix2 (0 : Fin 1) q) (ix1 q) ?_
    rw [Shape.rowMajor_val_two, Shape.rowMajor_val_one]
    show q.val = 0 * c + q.val
    omega

/-- The product into a zero accumulator plus the bias laid along the rows is the affine map of rows. -/
theorem affine_block {φ₁ φ₂ : FTy} (d : DotDims ⟨2, ![m, k]⟩ ⟨2, ![k, c]⟩ ⟨2, ![m, c]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![m, k]⟩ φ₁) (W : FVec Ideal ⟨2, ![k, c]⟩ φ₂)
    (b : FVec Ideal ⟨1, ![c]⟩ .f32)
    (hc : (⟨1, ![c]⟩ : Shape).ShapeCasts ⟨2, ![1, c]⟩) (hb : (⟨2, ![1, c]⟩ : Shape).Broadcasts ⟨2, ![m, c]⟩) :
    addf (matmul d prec X W (constant (F := Ideal) ⟨2, ![m, c]⟩ .f32 0x00000000#32))
        (broadcastTo ⟨2, ![m, c]⟩ (shapeCast ⟨2, ![1, c]⟩ b hc) hb)
      = Cert.Net.affine X W b := by
  funext j
  obtain ⟨p, q, rfl⟩ : ∃ (p : Fin m) (q : Fin c), j = ix2 p q := ⟨j 0, j 1, eq_ix2 j⟩
  refine (addf_apply _ _ (ix2 p q)).trans ?_
  rw [Cert.Net.affine_apply]
  exact congrArg₂ (· + ·) (Cert.Lib.matmul_plain_apply d h1 h2 h3 h4 h5 h6 prec X W p q) (biasRows_apply b hc hb p q)

/-- The select on "z > 0" between z and exp z − 1, entry by entry, is ELU. -/
theorem elu_block (s : Shape) (Z : FVec Ideal s .f32) :
    select (cmpf .ogt Z (broadcast s (Scalar.ofBits (F := Ideal) .f32 0x00000000#32))) Z
        (subf (exp Z) (broadcast s (Scalar.ofBits (F := Ideal) .f32 0x3F800000#32)))
      = fun j => Cert.Net.elu (Z j) := rfl

/-- So the narrowed select on an affine layer's result is the layer with ELU. -/
theorem dense_of_affine {n k c : ℕ} (X : Cert.Net.Mat n k) (W : Cert.Net.Mat k c) (b : Cert.Net.Row c)
    (hlt : FTy.bits .bf16 < FTy.bits .f32) :
    (truncf .bf16 (select (cmpf .ogt (Cert.Net.affine X W b : FVec Ideal ⟨2, ![n, c]⟩ .f32)
          (broadcast ⟨2, ![n, c]⟩ (Scalar.ofBits (F := Ideal) .f32 0x00000000#32)))
        (Cert.Net.affine X W b : FVec Ideal ⟨2, ![n, c]⟩ .f32)
        (subf (exp (Cert.Net.affine X W b : FVec Ideal ⟨2, ![n, c]⟩ .f32))
          (broadcast ⟨2, ![n, c]⟩ (Scalar.ofBits (F := Ideal) .f32 0x3F800000#32)))) hlt : FVec Ideal ⟨2, ![n, c]⟩ .bf16)
      = Cert.Net.dense X W b := rfl

end Layer

/-! ## The logarithm of the softmax on a block, for any sizes -/

section Softmax
variable {a b : ℕ}

/-- A vector of a entries kept as a column and laid along the b columns reads, at (p, q), its entry p. -/
theorem keptColumn_apply {α : Type} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ x hc) hb (ix2 p q) = x (ix1 p) :=
  (Cert.LibKeepdimsColumn.broadcastTo_a1_ab_apply (shapeCast ⟨2, ![a, 1]⟩ x hc) hb p q).trans
    (Cert.LibKeepdimsColumn.shapeCast_a_a1_apply x hc p 0)

/-- The row maximum floored at −∞, kept as a column and laid along the row, is the specification's row maximum. -/
theorem rowMaxColumn_apply (Y : FVec Ideal ⟨2, ![a, b]⟩ .f32)
    (hr : (⟨2, ![a, b]⟩ : Shape).Reduces [1] ⟨1, ![a]⟩) (hφ : FKind.Formats .f32)
    (hmax : (0xFF800000#32 : BitVec (FTy.bits .f32)) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ Y 0xFF800000#32 hr hφ hmax)) hc) hb (ix2 p q)
      = Cert.Net.rowMax Y p := by
  refine (keptColumn_apply _ hc hb p q).trans ?_
  refine (maximumf_apply _ _ (ix1 p)).trans ?_
  exact congrArg (max (Ideal.ofBits .f32 0xFF800000#32)) (Cert.LibAttnOps.rowmax_apply Y 0xFF800000#32 hr hφ hmax p)

/-- Shift each row by its maximum, take exponentials, sum the row, take the logarithm, subtract: the logarithm of the
    softmax along rows. -/
theorem logSoftmax_block (Y : FVec Ideal ⟨2, ![a, b]⟩ .f32)
    (hr : (⟨2, ![a, b]⟩ : Shape).Reduces [1] ⟨1, ![a]⟩) (hφ : FKind.Formats .f32)
    (hmax : (0xFF800000#32 : BitVec (FTy.bits .f32)) = FKind.maximumf.neutral .f32 hφ)
    (hφ' : FKind.Formats .f32) (hadd : (0x00000000#32 : BitVec (FTy.bits .f32)) = FKind.add.neutral .f32 hφ')
    (hc : (⟨1, ![a]⟩ : Shape).ShapeCasts ⟨2, ![a, 1]⟩) (hb : (⟨2, ![a, 1]⟩ : Shape).Broadcasts ⟨2, ![a, b]⟩)
    (M : FVec Ideal ⟨2, ![a, b]⟩ .f32)
    (hM : M = broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ Y 0xFF800000#32 hr hφ hmax)) hc) hb) :
    subf (subf Y M)
        (broadcastTo ⟨2, ![a, b]⟩ (log (shapeCast ⟨2, ![a, 1]⟩
          (multiReduction .add [1] ⟨1, ![a]⟩ (exp (subf Y M)) 0x00000000#32 hr hφ' hadd) hc)) hb)
      = Cert.Net.logSoftmax Y := by
  have hrow : ∀ (p : Fin a) (q : Fin b), M (ix2 p q) = Cert.Net.rowMax Y p := fun p q => by
    rw [hM]; exact rowMaxColumn_apply Y hr hφ hmax hc hb p q
  funext j
  obtain ⟨p, q, rfl⟩ : ∃ (p : Fin a) (q : Fin b), j = ix2 p q := ⟨j 0, j 1, eq_ix2 j⟩
  rw [Cert.Net.logSoftmax_apply]
  refine (subf_apply _ _ (ix2 p q)).trans ?_
  refine congrArg₂ (· - ·) ?_ ?_
  · exact (subf_apply Y M (ix2 p q)).trans (congrArg (Y (ix2 p q) - ·) (hrow p q))
  · refine (Cert.LibKeepdimsColumn.broadcastTo_a1_ab_apply _ hb p q).trans ?_
    show Ideal.log (shapeCast ⟨2, ![a, 1]⟩ (multiReduction .add [1] ⟨1, ![a]⟩ (exp (subf Y M)) 0x00000000#32 hr hφ' hadd) hc (ix2 p (0 : Fin 1))) = _
    refine congrArg Ideal.log ?_
    refine (Cert.LibKeepdimsColumn.shapeCast_a_a1_apply _ hc p 0).trans ?_
    refine (Cert.LibAttnOps.rowsum_apply (exp (subf Y M)) 0x00000000#32 hr hφ' hadd p).trans ?_
    refine Finset.sum_congr rfl fun t _ => ?_
    show Ideal.exp (Y (ix2 p t) - M (ix2 p t)) = _
    rw [hrow p t]

end Softmax

/-! ## The body's arithmetic on whole blocks -/

section Body
variable (x0 : Vec Ideal S2000x1280 .bf16) (x1 : Vec Ideal S1280x128 .f32) (x2 : Vec Ideal S128 .f32)
  (x3 : Vec Ideal S128x256 .f32) (x4 : Vec Ideal S256 .f32) (x5 : Vec Ideal S256x10 .f32) (x6 : Vec Ideal S10 .f32)

/-- The three layers of the body on a block of 2000 rows are the specification's three layers of that block. -/
theorem layers_block :
    k3_pay2 (F := Ideal) x0 x1 x2 x3 x4 x5 x6
      = Cert.Net.affine (Cert.Net.dense (Cert.Net.dense x0 x1 x2) x3 x4) x5 x6 := by
  have e1 : _ = Cert.Net.affine x0 x1 x2 :=
    affine_block (m := 2000) (k := 1280) (c := 128) (φ₁ := .bf16) (φ₂ := .bf16) dot_S2000x1280_S1280x128_S2000x128_1_0_0_1_n_n
      rfl rfl rfl rfl rfl rfl none x0 (truncf .bf16 x1 bitsLt_bf16_f32) x2 shapeCasts_S128_S1x128 broadcasts_S1x128_S2000x128
  have e2 : _ = Cert.Net.affine (Cert.Net.dense x0 x1 x2) x3 x4 :=
    affine_block (m := 2000) (k := 128) (c := 256) (φ₁ := .bf16) (φ₂ := .bf16) dot_S2000x128_S128x256_S2000x256_1_0_0_1_n_n
      rfl rfl rfl rfl rfl rfl none (Cert.Net.dense x0 x1 x2) (truncf .bf16 x3 bitsLt_bf16_f32) x4 shapeCasts_S256_S1x256 broadcasts_S1x256_S2000x256
  have e3 : _ = Cert.Net.affine (Cert.Net.dense (Cert.Net.dense x0 x1 x2) x3 x4) x5 x6 :=
    affine_block (m := 2000) (k := 256) (c := 10) (φ₁ := .bf16) (φ₂ := .bf16) dot_S2000x256_S256x10_S2000x10_1_0_0_1_n_n
      rfl rfl rfl rfl rfl rfl none (Cert.Net.dense (Cert.Net.dense x0 x1 x2) x3 x4) (truncf .bf16 x5 bitsLt_bf16_f32) x6 shapeCasts_S10_S1x10 broadcasts_S1x10_S2000x10
  unfold k3_pay2
  dsimp only
  rw [shapeCast_self, e1, dense_of_affine (n := 2000) (k := 1280) (c := 128) x0 x1 x2, e2,
    dense_of_affine (n := 2000) (k := 128) (c := 256) (Cert.Net.dense x0 x1 x2) x3 x4, e3]

/-- The body's result on a block: the logarithm of the softmax of the three layers of the block. -/
theorem body_block :
    k3_pay1 (F := Ideal) (k3_pay2 x0 x1 x2 x3 x4 x5 x6) (k3_pay3 x0 x1 x2 x3 x4 x5 x6) (k3_pay4 (F := Ideal))
      = Cert.Net.logSoftmax (Cert.Net.affine (Cert.Net.dense (Cert.Net.dense x0 x1 x2) x3 x4) x5 x6) := by
  refine Eq.trans ?_ (congrArg Cert.Net.logSoftmax (layers_block x0 x1 x2 x3 x4 x5 x6))
  unfold k3_pay1 k3_pay3 k3_pay4
  dsimp only
  exact logSoftmax_block (a := 2000) (b := 10) (k3_pay2 (F := Ideal) x0 x1 x2 x3 x4 x5 x6) reduces_S2000x10_S2000 (.inl rfl) rfl
    (.inl rfl) rfl shapeCasts_S2000_S2000x1 broadcasts_S2000x1_S2000x10 _ rfl

end Body

/-! ## The blocks of the eight windows -/

section Blocks
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the fifty points: the first operand's and the result's block of point t is block
    (t, 0); every other operand's is block (0, 0) or (0). -/
theorem index_maps : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0 :=
  (by decide +kernel : ∀ t : Fin grid3.N, _)

/-- A point's block of 2000 rows lies inside the 100000 rows. -/
theorem rows_le (t : Fin cfg3.N) : 2000 * t.val + 2000 ≤ 100000 := by
  have h : t.val < 50 := lt_of_lt_of_eq t.isLt N_3
  omega

/-- The first operand's block at point t is rows 2000·t … 2000·t + 1999 of the array. -/
theorem rows_in (t : Fin cfg3.N) (X : Cert.Net.Mat 100000 1280) :
    (((cfg3.win 0).blk t).view.read (Elt Ideal) X : Cert.Net.Mat 2000 1280) = Cert.Net.rowBlock 2000 t.val (rows_le t) X := by
  obtain ⟨e0, e1, -⟩ := index_maps t
  funext j
  show X (((cfg3.win 0).blk t).view.emb j) = X (ix2 ⟨2000 * t.val + (j 0).val, _⟩ (j 1))
  refine congrArg X (funext fun a => Fin.ext ?_)
  match a with
  | ⟨0, _⟩ => show win3_0.index t (0 : Fin 2) * 2000 + 1 * (j 0).val = 2000 * t.val + (j 0).val; rw [e0]; omega
  | ⟨1, _⟩ => show win3_0.index t (1 : Fin 2) * 1280 + 1 * (j 1).val = (j 1).val; rw [e1]; omega

/-- The result's block at point t is rows 2000·t … 2000·t + 1999 of the array. -/
theorem rows_out (t : Fin cfg3.N) (X : Cert.Net.Mat 100000 10) :
    (((cfg3.win 7).blk t).view.read (Elt Ideal) X : Cert.Net.Mat 2000 10) = Cert.Net.rowBlock 2000 t.val (rows_le t) X := by
  obtain ⟨-, -, e0, e1, -⟩ := index_maps t
  funext j
  show X (((cfg3.win 7).blk t).view.emb j) = X (ix2 ⟨2000 * t.val + (j 0).val, _⟩ (j 1))
  refine congrArg X (funext fun a => Fin.ext ?_)
  match a with
  | ⟨0, _⟩ => show win3_7.index t (0 : Fin 2) * 2000 + 1 * (j 0).val = 2000 * t.val + (j 0).val; rw [e0]; omega
  | ⟨1, _⟩ => show win3_7.index t (1 : Fin 2) * 10 + 1 * (j 1).val = (j 1).val; rw [e1]; omega

end Blocks

section Whole

/-- Operand 1 is read whole at every point. -/
theorem whole1 (t : Fin cfg3.N) (X : Cert.Net.Mat 1280 128) :
    (((cfg3.win 1).blk t).view.read (Elt Ideal) X : Cert.Net.Mat 1280 128) = X := by
  obtain ⟨-, -, -, -, e0, e1, -⟩ := index_maps t
  funext j
  show X (((cfg3.win 1).blk t).view.emb j) = X j
  refine congrArg X (funext fun a => Fin.ext ?_)
  match a with
  | ⟨0, _⟩ => show win3_1.index t (0 : Fin 2) * 1280 + 1 * (j 0).val = (j 0).val; rw [e0]; omega
  | ⟨1, _⟩ => show win3_1.index t (1 : Fin 2) * 128 + 1 * (j 1).val = (j 1).val; rw [e1]; omega

/-- Operand 2 is read whole at every point. -/
theorem whole2 (t : Fin cfg3.N) (X : Cert.Net.Row 128) :
    (((cfg3.win 2).blk t).view.read (Elt Ideal) X : Cert.Net.Row 128) = X := by
  obtain ⟨-, -, -, -, -, -, e0, -⟩ := index_maps t
  funext j
  show X (((cfg3.win 2).blk t).view.emb j) = X j
  refine congrArg X (funext fun a => Fin.ext ?_)
  match a with
  | ⟨0, _⟩ => show win3_2.index t (0 : Fin 1) * 128 + 1 * (j 0).val = (j 0).val; rw [e0]; omega

/-- Operand 3 is read whole at every point. -/
theorem whole3 (t : Fin cfg3.N) (X : Cert.Net.Mat 128 256) :
    (((cfg3.win 3).blk t).view.read (Elt Ideal) X : Cert.Net.Mat 128 256) = X := by
  obtain ⟨-, -, -, -, -, -, -, e0, e1, -⟩ := index_maps t
  funext j
  show X (((cfg3.win 3).blk t).view.emb j) = X j
  refine congrArg X (funext fun a => Fin.ext ?_)
  match a with
  | ⟨0, _⟩ => show win3_3.index t (0 : Fin 2) * 128 + 1 * (j 0).val = (j 0).val; rw [e0]; omega
  | ⟨1, _⟩ => show win3_3.index t (1 : Fin 2) * 256 + 1 * (j 1).val = (j 1).val; rw [e1]; omega

/-- Operand 4 is read whole at every point. -/
theorem whole4 (t : Fin cfg3.N) (X : Cert.Net.Row 256) :
    (((cfg3.win 4).blk t).view.read (Elt Ideal) X : Cert.Net.Row 256) = X := by
  obtain ⟨-, -, -, -, -, -, -, -, -, e0, -⟩ := index_maps t
  funext j
  show X (((cfg3.win 4).blk t).view.emb j) = X j
  refine congrArg X (funext fun a => Fin.ext ?_)
  match a with
  | ⟨0, _⟩ => show win3_4.index t (0 : Fin 1) * 256 + 1 * (j 0).val = (j 0).val; rw [e0]; omega

/-- Operand 5 is read whole at every point. -/
theorem whole5 (t : Fin cfg3.N) (X : Cert.Net.Mat 256 10) :
    (((cfg3.win 5).blk t).view.read (Elt Ideal) X : Cert.Net.Mat 256 10) = X := by
  obtain ⟨-, -, -, -, -, -, -, -, -, -, e0, e1, -⟩ := index_maps t
  funext j
  show X (((cfg3.win 5).blk t).view.emb j) = X j
  refine congrArg X (funext fun a => Fin.ext ?_)
  match a with
  | ⟨0, _⟩ => show win3_5.index t (0 : Fin 2) * 256 + 1 * (j 0).val = (j 0).val; rw [e0]; omega
  | ⟨1, _⟩ => show win3_5.index t (1 : Fin 2) * 10 + 1 * (j 1).val = (j 1).val; rw [e1]; omega

/-- Operand 6 is read whole at every point. -/
theorem whole6 (t : Fin cfg3.N) (X : Cert.Net.Row 10) :
    (((cfg3.win 6).blk t).view.read (Elt Ideal) X : Cert.Net.Row 10) = X := by
  obtain ⟨-, -, -, -, -, -, -, -, -, -, -, -, e0⟩ := index_maps t
  funext j
  show X (((cfg3.win 6).blk t).view.emb j) = X j
  refine congrArg X (funext fun a => Fin.ext ?_)
  match a with
  | ⟨0, _⟩ => show win3_6.index t (0 : Fin 1) * 10 + 1 * (j 0).val = (j 0).val; rw [e0]; omega

end Whole

/-! ## From the fifty blocks to the array -/

section Array
variable (V : (c : Dev nD) → (b : Ref sig .tc) → Buf (Elt Ideal) ((c : Thread nD τ).loc b))

/-- The head of the seven operand arrays as the call finds them. -/
abbrev headOf (c : Dev nD) : Cert.Net.Mat 100000 10 :=
  Cert.Net.logSoftmax (Cert.Net.affine (Cert.Net.dense (Cert.Net.dense (V c (Pipeline.arrRef spec3 0)) (V c (Pipeline.arrRef spec3 1)) (V c (Pipeline.arrRef spec3 2)))
    (V c (Pipeline.arrRef spec3 3)) (V c (Pipeline.arrRef spec3 4))) (V c (Pipeline.arrRef spec3 5)) (V c (Pipeline.arrRef spec3 6)))

/-- What point t writes back is rows 2000·t … 2000·t + 1999 of the head of the arrays: the body computes the head of
    its blocks, its first block is those rows of the first array and the others are the whole arrays, and the head of a
    block of rows is that block of rows of the head. -/
theorem written_block (c : Dev nD) (t : Fin cfg3.N) :
    (dat3 (F := Ideal) V c).flushed 7 t = ((cfg3.win 7).blk t).view.read (Elt Ideal) (headOf V c) := by
  show (cfg3.win 7).cut (grid3.coords t) ((dat3 V c).after 7 t) = _
  rw [after3_7]
  unfold out3_7
  rw [View.canon_unit_zero zeros2]
  simp only [View.ld_unit_zero (S := S2000x1280) zeros2, View.ld_unit_zero (S := S1280x128) zeros2,
    View.ld_unit_zero (S := S128) zeros1, View.ld_unit_zero (S := S128x256) zeros2, View.ld_unit_zero (S := S256) zeros1,
    View.ld_unit_zero (S := S256x10) zeros2, View.ld_unit_zero (S := S10) zeros1]
  refine (Eq.trans (body_block (iblk3 V c 0 t) (iblk3 V c 1 t) (iblk3 V c 2 t) (iblk3 V c 3 t) (iblk3 V c 4 t)
    (iblk3 V c 5 t) (iblk3 V c 6 t)) ?_).trans (rows_out t (headOf V c)).symm
  have b0 : (iblk3 V c 0 t : Cert.Net.Mat 2000 1280)
      = Cert.Net.rowBlock 2000 t.val (rows_le t) (V c (Pipeline.arrRef spec3 0)) := rows_in t _
  have b1 : (iblk3 V c 1 t : Cert.Net.Mat 1280 128) = V c (Pipeline.arrRef spec3 1) := whole1 t _
  have b2 : (iblk3 V c 2 t : Cert.Net.Row 128) = V c (Pipeline.arrRef spec3 2) := whole2 t _
  have b3 : (iblk3 V c 3 t : Cert.Net.Mat 128 256) = V c (Pipeline.arrRef spec3 3) := whole3 t _
  have b4 : (iblk3 V c 4 t : Cert.Net.Row 256) = V c (Pipeline.arrRef spec3 4) := whole4 t _
  have b5 : (iblk3 V c 5 t : Cert.Net.Mat 256 10) = V c (Pipeline.arrRef spec3 5) := whole5 t _
  have b6 : (iblk3 V c 6 t : Cert.Net.Row 10) = V c (Pipeline.arrRef spec3 6) := whole6 t _
  rw [b0, b1, b2, b3, b4, b5, b6, Cert.Net.rowBlock_logSoftmax, Cert.Net.rowBlock_affine, Cert.Net.rowBlock_dense,
    Cert.Net.rowBlock_dense]

/-- An index of the result array lies in point t's block iff each coordinate lies in the block's range on its axis. -/
theorem mem_block (t : Fin cfg3.N) (i : S100000x10.Idx) :
    i ∈ ((cfg3.win 7).blk t).view.set
      ↔ ∀ a : Fin 2, win3_7.index t a * S2000x10.size a ≤ (i a).val
          ∧ (i a).val < win3_7.index t a * S2000x10.size a + S2000x10.size a := by
  show i ∈ ((View.whole main_v29).slice (win3_7.rect t)).set ↔ _
  rw [View.set_slice_whole, Rect.mem_set_unit]
  exact Iff.rfl

/-- Row r of the result lies in the block of point r / 2000, so the fifty blocks cover the array. -/
theorem blocks_cover (i : S100000x10.Idx) :
    ∃ t : Fin cfg3.N, (cfg3.win 7).flush t = true ∧ i ∈ ((cfg3.win 7).blk t).view.set := by
  have hi0 : (i 0).val < 100000 := idx2_lt0 i
  have hi1 : (i 1).val < 10 := idx2_lt1 i
  have hN : cfg3.N = 50 := N_3
  let t : Fin cfg3.N := ⟨(i 0).val / 2000, by rw [hN]; omega⟩
  have ht : t.val = (i 0).val / 2000 := rfl
  obtain ⟨-, -, e0, e1, -⟩ := index_maps t
  refine ⟨t, flush3_7 t, ?_⟩
  rw [mem_block]
  intro a
  match a with
  | ⟨0, _⟩ =>
    show win3_7.index t (0 : Fin 2) * 2000 ≤ (i 0).val ∧ (i 0).val < win3_7.index t (0 : Fin 2) * 2000 + 2000
    rw [e0, ht]; omega
  | ⟨1, _⟩ =>
    show win3_7.index t (1 : Fin 2) * 10 ≤ (i 1).val ∧ (i 1).val < win3_7.index t (1 : Fin 2) * 10 + 10
    rw [e1]; omega

end Array

end HeadRegion

variable (V : (c : Dev nD) → (b : Ref sig .tc) → Buf (Elt Ideal) ((c : Thread nD τ).loc b))

/-- At any contents on entry, the result array after the call's fifty write-backs is the head of the seven operand
    arrays as the call found them. -/
theorem head (c : Dev nD) :
    ((dat3 (F := Ideal) V c).arrAt 7 cfg3.N : Cert.Net.Mat 100000 10)
      = Cert.Net.logSoftmax (Cert.Net.affine (Cert.Net.dense (Cert.Net.dense (V c (Pipeline.arrRef spec3 0)) (V c (Pipeline.arrRef spec3 1)) (V c (Pipeline.arrRef spec3 2)))
          (V c (Pipeline.arrRef spec3 3)) (V c (Pipeline.arrRef spec3 4))) (V c (Pipeline.arrRef spec3 5)) (V c (Pipeline.arrRef spec3 6))) :=
  (dat3 (F := Ideal) V c).arrAt_eq_of_cover 7 (HeadRegion.headOf V c) (fun t _ => HeadRegion.written_block V c t) HeadRegion.blocks_cover

end Cert.KerLayers

end
-- ==== Proof.RefStages.lean ====
import proofs.«400294_j67422396612957_3_alg».proof.Proof.Net
import proofs.«400294_j67422396612957_3_alg».proof.Proof.LibPlainMatmul
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws
import Idealize.ShloMosaic.PureOps.Reduce

/-!
  The stages of the reference program, as equations between whole arrays of extended reals.

  The reference spells each layer of the network by elementary array operations: a matrix product, a bias row laid
  along every row, and for ELU two comparisons with zero, two selections, an "exp minus one" and a product with one; the
  last stage takes each row's maximum, shifts the row by it, and subtracts the logarithm of the sum of the shifted row's
  exponentials. Read at one index each of these is the corresponding function of the network's specification:

  * ELU: where z > 0 both selections keep z; elsewhere the inner selection keeps z too (it puts zero where z > 0),
    and 1 · (exp z − 1) = exp z − 1.
  * a layer before its ELU: entry (p, q) of the product is ∑ t, X (p, t) · W (t, q), and the bias row laid along
    every row reads b q there.
  * the logarithm of the softmax: a maximum-reduction along a row from −∞ is the fold of max over the row from −∞, an
    add-reduction from 0 is the sum over the row, and a vector laid along the columns reads its entry at the row.
-/

noncomputable section

namespace Cert.RefStages

open Idealize.ShloMosaic Idealize.ShloMosaic.ValueIdx

/-! ## ELU -/

/-- The reference's ELU, as its operations compose: the outer selection on z > 0 between z and
    1 · expm1 (the inner selection on z > 0 between 0 and z). -/
theorem elu_eq {s : Shape} (hb : (⟨0, ![]⟩ : Shape).BroadcastsInDim s ![]) (x : FVec Ideal s .f32) :
    select (cmpf .ogt x (broadcastInDim s ![] hb (constant (F := Ideal) ⟨0, ![]⟩ .f32 0x00000000#32))) x
        (mulf (broadcastInDim s ![] hb (constant (F := Ideal) ⟨0, ![]⟩ .f32 0x3F800000#32))
          (Host.expm1 (select (cmpf .ogt x (broadcastInDim s ![] hb (constant (F := Ideal) ⟨0, ![]⟩ .f32 0x00000000#32)))
            (broadcastInDim s ![] hb (id (constant (F := Ideal) ⟨0, ![]⟩ .f32 0x00000000#32))) x)))
      = fun j => Cert.Net.elu (x j) := by
  funext j
  show Scalar.select (Ideal.cmp .ogt (x j) (Ideal.ofBits .f32 0x00000000#32)) (x j)
      (Ideal.ofBits .f32 0x3F800000#32
        * (Ideal.exp (Scalar.select (Ideal.cmp .ogt (x j) (Ideal.ofBits .f32 0x00000000#32))
            (Ideal.ofBits .f32 0x00000000#32) (x j)) - 1))
    = Scalar.select (Ideal.cmp .ogt (x j) (Ideal.ofBits .f32 0x00000000#32)) (x j)
        (Ideal.exp (x j) - Ideal.ofBits .f32 0x3F800000#32)
  by_cases hc : Ideal.cmp .ogt (x j) (Ideal.ofBits .f32 0x00000000#32) = 1#1
  · rw [hc, ValueIdx.select_one, ValueIdx.select_one]
  · rw [ValueIdx.eq_zero_of_ne_one hc, ValueIdx.select_zero, ValueIdx.select_zero, ValueIdx.select_zero, Ideal.ofBits_one_f32, one_mul]

/-! ## A layer -/

/-- A bias row laid along every row of an n × c matrix (first as a 1 × c matrix, then down the rows) reads, at (p, q),
    the bias at q. -/
theorem bias_apply {n c : ℕ} (hb1 : (⟨1, ![c]⟩ : Shape).BroadcastsInDim ⟨2, ![1, c]⟩ ![1])
    (hb2 : (⟨2, ![1, c]⟩ : Shape).BroadcastsInDim ⟨2, ![n, c]⟩ ![0, 1]) (b : FVec Ideal ⟨1, ![c]⟩ .f32)
    (p : Fin n) (q : Fin c) :
    broadcastInDim ⟨2, ![n, c]⟩ ![0, 1] hb2 (broadcastInDim ⟨2, ![1, c]⟩ ![1] hb1 b) (ix2 p q) = b (ix1 q) := by
  rw [broadcastInDim_oneRow_apply hb2 _ p q]
  refine broadcastInDim_apply ![1] hb1 b (ix2 (0 : Fin 1) q) (ix1 q) ?_
  intro a
  match a with
  | ⟨0, _⟩ =>
    show q.val = if c = 1 then 0 else q.val
    split
    · have := q.isLt; omega
    · rfl

/-- The product plus the bias row laid along every row is the specification's affine map. -/
theorem affine_eq {n k c : ℕ} (d : DotDims ⟨2, ![n, k]⟩ ⟨2, ![k, c]⟩ ⟨2, ![n, c]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![c]⟩ : Shape).BroadcastsInDim ⟨2, ![1, c]⟩ ![1])
    (hb2 : (⟨2, ![1, c]⟩ : Shape).BroadcastsInDim ⟨2, ![n, c]⟩ ![0, 1])
    (X : FVec Ideal ⟨2, ![n, k]⟩ .f32) (W : FVec Ideal ⟨2, ![k, c]⟩ .f32) (b : FVec Ideal ⟨1, ![c]⟩ .f32) :
    addf (Host.dotGeneral d none X W)
        (broadcastInDim ⟨2, ![n, c]⟩ ![0, 1] hb2 (broadcastInDim ⟨2, ![1, c]⟩ ![1] hb1 b))
      = Cert.Net.affine X W b := by
  funext j
  obtain ⟨p, q, rfl⟩ : ∃ (p : Fin n) (q : Fin c), j = ix2 p q := ⟨j 0, j 1, eq_ix2 j⟩
  show FloatOps.dotGeneral d none .single X W (ix2 p q)
      + broadcastInDim ⟨2, ![n, c]⟩ ![0, 1] hb2 (broadcastInDim ⟨2, ![1, c]⟩ ![1] hb1 b) (ix2 p q)
    = Cert.Net.affine X W b (ix2 p q)
  rw [Cert.Lib.dotGeneral_plain_apply d h1 h2 h3 h4 h5 h6, bias_apply hb1 hb2 b p q, Cert.Net.affine_apply]

/-- The same followed by the reference's ELU is the specification's layer. -/
theorem dense_eq {n k c : ℕ} (d : DotDims ⟨2, ![n, k]⟩ ⟨2, ![k, c]⟩ ⟨2, ![n, c]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![c]⟩ : Shape).BroadcastsInDim ⟨2, ![1, c]⟩ ![1])
    (hb2 : (⟨2, ![1, c]⟩ : Shape).BroadcastsInDim ⟨2, ![n, c]⟩ ![0, 1])
    (hb : (⟨0, ![]⟩ : Shape).BroadcastsInDim ⟨2, ![n, c]⟩ ![])
    (X : FVec Ideal ⟨2, ![n, k]⟩ .f32) (W : FVec Ideal ⟨2, ![k, c]⟩ .f32) (b : FVec Ideal ⟨1, ![c]⟩ .f32) :
    select (cmpf .ogt (addf (Host.dotGeneral d none X W)
          (broadcastInDim ⟨2, ![n, c]⟩ ![0, 1] hb2 (broadcastInDim ⟨2, ![1, c]⟩ ![1] hb1 b)))
        (broadcastInDim ⟨2, ![n, c]⟩ ![] hb (constant (F := Ideal) ⟨0, ![]⟩ .f32 0x00000000#32)))
        (addf (Host.dotGeneral d none X W)
          (broadcastInDim ⟨2, ![n, c]⟩ ![0, 1] hb2 (broadcastInDim ⟨2, ![1, c]⟩ ![1] hb1 b)))
        (mulf (broadcastInDim ⟨2, ![n, c]⟩ ![] hb (constant (F := Ideal) ⟨0, ![]⟩ .f32 0x3F800000#32))
          (Host.expm1 (select (cmpf .ogt (addf (Host.dotGeneral d none X W)
              (broadcastInDim ⟨2, ![n, c]⟩ ![0, 1] hb2 (broadcastInDim ⟨2, ![1, c]⟩ ![1] hb1 b)))
              (broadcastInDim ⟨2, ![n, c]⟩ ![] hb (constant (F := Ideal) ⟨0, ![]⟩ .f32 0x00000000#32)))
            (broadcastInDim ⟨2, ![n, c]⟩ ![] hb (id (constant (F := Ideal) ⟨0, ![]⟩ .f32 0x00000000#32)))
            (addf (Host.dotGeneral d none X W)
              (broadcastInDim ⟨2, ![n, c]⟩ ![0, 1] hb2 (broadcastInDim ⟨2, ![1, c]⟩ ![1] hb1 b))))))
      = Cert.Net.dense X W b := by
  rw [elu_eq hb, affine_eq d h1 h2 h3 h4 h5 h6 hb1 hb2 X W b]
  rfl

/-- The ELU of the specification's affine map, array by array, is the specification's layer (for a run that has already
    rewritten the pre-activation). -/
theorem elu_affine {n k c : ℕ} (X : Cert.Net.Mat n k) (W : Cert.Net.Mat k c) (b : Cert.Net.Row c) :
    (fun j => Cert.Net.elu (Cert.Net.affine X W b j)) = Cert.Net.dense X W b := rfl

/-! ## The logarithm of the softmax -/

/-- Row p of an n × c matrix with its column put back: the index over p whose column is t. -/
theorem lift_row {n c : ℕ} (h : (⟨2, ![n, c]⟩ : Shape).Reduces [1] ⟨1, ![n]⟩) (p : Fin n)
    (t : Fin ((⟨2, ![n, c]⟩ : Shape).size 1)) : h.lift (ix1 p) t = ix2 p (⟨t.val, t.isLt⟩ : Fin c) := by
  funext a; apply Fin.ext
  fin_cases a <;> rfl

/-- The reference's row maximum at row p — the maximum-reduction along the row from the word of −∞, then the maximum
    with that word once more — is the specification's. -/
theorem rowMax_eq {n c : ℕ} (hr : (⟨2, ![n, c]⟩ : Shape).ReducesTo [1] ⟨1, ![n]⟩)
    (hu : 0 < (⟨0, ![]⟩ : Shape).numel) (hbs : (⟨0, ![]⟩ : Shape).BroadcastsInDim ⟨1, ![n]⟩ ![])
    (y : FVec Ideal ⟨2, ![n, c]⟩ .f32) (p : Fin n) :
    maximumf (broadcastInDim ⟨1, ![n]⟩ ![] hbs (constant (F := Ideal) ⟨0, ![]⟩ .f32 0xFF800000#32))
        (Host.reduce FloatOps.maximumf y (constant (F := Ideal) ⟨0, ![]⟩ .f32 0xFF800000#32) hr hu) (ix1 p)
      = Cert.Net.rowMax y p := by
  have h : (⟨2, ![n, c]⟩ : Shape).Reduces [1] ⟨1, ![n]⟩ := ⟨hr.1, Nat.one_pos, hr.2⟩
  show max (Ideal.ofBits .f32 0xFF800000#32)
      (Host.reduce FloatOps.maximumf y (constant (F := Ideal) ⟨0, ![]⟩ .f32 0xFF800000#32) hr hu (ix1 p))
    = Cert.Net.rowMax y p
  rw [Host.reduce_eq_fold_single FloatOps.maximumf y _ hr h hu]
  have hf : (y ∘ h.lift (ix1 p)) = fun t : Fin c => y (ix2 p t) := funext fun t => congrArg y (lift_row h p t)
  unfold Cert.Net.rowMax
  exact congrArg (fun f => max (Ideal.ofBits .f32 0xFF800000#32)
    (Finset.fold max (Ideal.ofBits .f32 0xFF800000#32) f (Finset.univ : Finset (Fin c)))) hf

/-- A vector of n entries laid along the columns of an n × c matrix (first as an n × 1 matrix, then across the columns)
    reads, at (p, q), its entry p. -/
theorem col_apply {α : Type} {n c : ℕ} (hb1 : (⟨1, ![n]⟩ : Shape).BroadcastsInDim ⟨2, ![n, 1]⟩ ![0])
    (hb2 : (⟨2, ![n, 1]⟩ : Shape).BroadcastsInDim ⟨2, ![n, c]⟩ ![0, 1]) (g : (⟨2, ![n, 1]⟩ : Shape).Idx → α)
    (p : Fin n) (q : Fin c) :
    broadcastInDim ⟨2, ![n, c]⟩ ![0, 1] hb2 g (ix2 p q) = g (ix2 p (0 : Fin 1)) := by
  refine broadcastInDim_apply ![0, 1] hb2 g (ix2 p q) (ix2 p (0 : Fin 1)) ?_
  intro a
  match a with
  | ⟨0, _⟩ =>
    show p.val = if n = 1 then 0 else p.val
    split
    · have := p.isLt; omega
    · rfl
  | ⟨1, _⟩ =>
    show (0 : ℕ) = if (1 : ℕ) = 1 then 0 else q.val
    simp

/-- A vector of n entries as an n × 1 matrix reads, at (p, 0), its entry p. -/
theorem col1_apply {α : Type} {n : ℕ} (hb1 : (⟨1, ![n]⟩ : Shape).BroadcastsInDim ⟨2, ![n, 1]⟩ ![0])
    (v : (⟨1, ![n]⟩ : Shape).Idx → α) (p : Fin n) :
    broadcastInDim ⟨2, ![n, 1]⟩ ![0] hb1 v (ix2 p (0 : Fin 1)) = v (ix1 p) := by
  refine broadcastInDim_apply ![0] hb1 v (ix2 p (0 : Fin 1)) (ix1 p) ?_
  intro a
  match a with
  | ⟨0, _⟩ =>
    show p.val = if n = 1 then 0 else p.val
    split
    · have := p.isLt; omega
    · rfl

/-- The reference's logarithm of the softmax, as its operations compose, is the specification's. -/
theorem logSoftmax_eq {n c : ℕ} (hr : (⟨2, ![n, c]⟩ : Shape).ReducesTo [1] ⟨1, ![n]⟩)
    (hu : 0 < (⟨0, ![]⟩ : Shape).numel) (hbs : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, c]⟩ ![0, 1])
    (y : FVec Ideal ⟨2, ![n, c]⟩ .f32) :
    subf
        (subf y (broadcastInDim ⟨2, ![n, c]⟩ ![0, 1] hb2 (broadcastInDim ⟨2, ![n, 1]⟩ ![0] hb1
          (maximumf (broadcastInDim ⟨1, ![n]⟩ ![] hbs (constant (F := Ideal) ⟨0, ![]⟩ .f32 0xFF800000#32))
            (Host.reduce FloatOps.maximumf y (constant (F := Ideal) ⟨0, ![]⟩ .f32 0xFF800000#32) hr hu)))))
        (broadcastInDim ⟨2, ![n, c]⟩ ![0, 1] hb2 (Host.log (broadcastInDim ⟨2, ![n, 1]⟩ ![0] hb1
          (Host.reduceAdd
            (Host.exp (subf y (broadcastInDim ⟨2, ![n, c]⟩ ![0, 1] hb2 (broadcastInDim ⟨2, ![n, 1]⟩ ![0] hb1
              (maximumf (broadcastInDim ⟨1, ![n]⟩ ![] hbs (constant (F := Ideal) ⟨0, ![]⟩ .f32 0xFF800000#32))
                (Host.reduce FloatOps.maximumf y (constant (F := Ideal) ⟨0, ![]⟩ .f32 0xFF800000#32) hr hu))))))
            (constant (F := Ideal) ⟨0, ![]⟩ .f32 0x00000000#32) hr hu))))
      = Cert.Net.logSoftmax y := by
  have h : (⟨2, ![n, c]⟩ : Shape).Reduces [1] ⟨1, ![n]⟩ := ⟨hr.1, Nat.one_pos, hr.2⟩
  -- the shifted row, read at an index
  have hsh : ∀ (p : Fin n) (t : Fin c),
      subf y (broadcastInDim ⟨2, ![n, c]⟩ ![0, 1] hb2 (broadcastInDim ⟨2, ![n, 1]⟩ ![0] hb1
          (maximumf (broadcastInDim ⟨1, ![n]⟩ ![] hbs (constant (F := Ideal) ⟨0, ![]⟩ .f32 0xFF800000#32))
            (Host.reduce FloatOps.maximumf y (constant (F := Ideal) ⟨0, ![]⟩ .f32 0xFF800000#32) hr hu)))) (ix2 p t)
        = y (ix2 p t) - Cert.Net.rowMax y p := by
    intro p t
    rw [subf_apply, col_apply hb1 hb2 _ p t, col1_apply hb1 _ p, rowMax_eq hr hu hbs y p]
  funext j
  obtain ⟨p, q, rfl⟩ : ∃ (p : Fin n) (q : Fin c), j = ix2 p q := ⟨j 0, j 1, eq_ix2 j⟩
  rw [subf_apply, hsh p q, col_apply hb1 hb2 _ p q, Cert.Net.logSoftmax_apply]
  show _ - Ideal.log (broadcastInDim (s := ⟨1, ![n]⟩) ⟨2, ![n, 1]⟩ ![0] hb1 _ (ix2 p (0 : Fin 1))) = _
  rw [col1_apply hb1 _ p, hostReduceAdd_apply, Ideal.hostReduceAdd_single hr h]
  show _ - Ideal.log (Ideal.ofBits .f32 0x00000000#32 + _) = _
  rw [Ideal.ofBits_zero_f32, zero_add]
  refine congrArg (fun z => (y (ix2 p q) - Cert.Net.rowMax y p) - Ideal.log z) ?_
  refine Finset.sum_congr rfl fun t _ => ?_
  rw [lift_row h p t]
  show Ideal.exp (subf y _ (ix2 p (⟨t.val, t.isLt⟩ : Fin c))) = _
  rw [hsh p ⟨t.val, t.isLt⟩]
  rfl

end Cert.RefStages

end
-- ==== Proof.RefRun.lean ====
/-
  The reference program's run, and its result as the specification's network.

  The program is one straight line of host operations once its outlined functions are unfolded at their calls. The line is
  cut into ten stretches: five affine layers each followed by the ELU function's operations, the three steps that collect
  twenty rows per vertex (index wrap, row gather, reshape), the last affine layer, and the log-softmax function's
  operations. What a buffer holds after two stretches run in order is the second stretch's fold from the first one's, so
  each stretch is read on its own, as an equation between whole arrays over any contents it starts from, and the ten
  equations are chained. No stretch writes an argument's buffer, so the arguments end as they began.
-/
import proofs.«400294_j67422396612957_3_alg».proof.Defs
import proofs.«400294_j67422396612957_3_alg».proof.Proof.Gen.ReferenceIdeal
import proofs.«400294_j67422396612957_3_alg».proof.Proof.Net
import proofs.«400294_j67422396612957_3_alg».proof.Proof.RefStages
import Idealize.ShloMosaic.Lib.StableHlo.Run

noncomputable section

namespace Cert.RefSide

open Idealize.ShloMosaic Idealize.SL.Sem Cert.ReferenceIdeal Cert.ReferenceIdeal.Gen Idealize.ShloMosaic.StableHlo

variable {F : FTy → Type} [FloatOps F]

/-! ## The operations, stretch by stretch -/

/-- First layer: positions times the first weight matrix plus its bias row, then the ELU function's fifteen operations
    (two comparisons with a broadcast zero, the inner select through its own converted and broadcast zero, exp − 1, the
    product with a broadcast one, the outer select). -/
abbrev opsL0 : List (HloOp τ sig (Elt F)) :=
  [ binary main_arg0 main_arg2 main_v0 (fun l r => Host.dotGeneral dot_S100000x3_S3x16_S100000x16_1_0_0_1_n_n none l r),
    unary main_arg3 main_v1 (broadcastInDim S1x16 ![1] bcast_S16_S1x16_1),
    unary main_v1 main_v2 (broadcastInDim S100000x16 ![0, 1] bcast_S1x16_S100000x16_0_1),
    binary main_v0 main_v2 main_v3 addf,
    TRef.nullary main_call0.cst (constant S_ .f32 0x00000000#32),
    TRef.unary main_call0.cst main_call0.v0 (broadcastInDim S100000x16 ![] bcast_S_S100000x16),
    TRef.binary (.of main_v3) main_call0.v0 main_call0.v1 (cmpf .ogt),
    TRef.nullary main_call0.cst_0 (constant S_ .f32 0x00000000#32),
    TRef.unary main_call0.cst_0 main_call0.v2 (broadcastInDim S100000x16 ![] bcast_S_S100000x16),
    TRef.binary (.of main_v3) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x16 ![] bcast_S_S100000x16),
    TRef.ternary main_call0.v3 main_call0.call0.v1 (.of main_v3) main_call0.call0.v2 select,
    TRef.unary main_call0.call0.v2 main_call0.v5 Host.expm1,
    TRef.nullary main_call0.cst_2 (constant S_ .f32 0x3F800000#32),
    TRef.unary main_call0.cst_2 main_call0.v6 (broadcastInDim S100000x16 ![] bcast_S_S100000x16),
    TRef.binary main_call0.v6 main_call0.v5 main_call0.v7 mulf,
    TRef.ternary main_call0.v1 (.of main_v3) main_call0.v7 main_call0.call1.v0 select ]

/-- First collecting step: the spiral indices flattened, negative ones wrapped by the number of vertices, made a column
    of start indices; the rows gathered; twenty rows side by side per vertex. -/
abbrev opsG1 : List (HloOp τ sig (Elt F)) :=
  [ reshape main_arg1 main_v5 rfl shapeCasts_S100000x20_S2000000,
    nullary main_c (constantI S_ 32 0#32),
    unary main_c main_v6 (broadcastInDim S2000000 ![] bcast_S_S2000000),
    binary main_v5 main_v6 main_v7 (cmpi .slt),
    nullary main_c_0 (constantI S_ 32 100000#32),
    unary main_c_0 main_v8 (broadcastInDim S2000000 ![] bcast_S_S2000000),
    binary main_v5 main_v8 main_v9 addi,
    ternary main_v7 main_v9 main_v5 main_v10 select,
    unary main_v10 main_v11 (broadcastInDim S2000000x1 ![0] bcast_S2000000_S2000000x1_0),
    binary main_v4 main_v11 main_v12 (fun x i => Host.gather gather_S100000x16_S2000000x1_S2000000x16_1_0_n_n_0_1_116 x i),
    reshape main_v12 main_v13 rfl shapeCasts_S2000000x16_S100000x320 ]

/-- Second layer and its ELU. -/
abbrev opsL1 : List (HloOp τ sig (Elt F)) :=
  [ binary main_v13 main_arg4 main_v14 (fun l r => Host.dotGeneral dot_S100000x320_S320x32_S100000x32_1_0_0_1_n_n none l r),
    unary main_arg5 main_v15 (broadcastInDim S1x32 ![1] bcast_S32_S1x32_1),
    unary main_v15 main_v16 (broadcastInDim S100000x32 ![0, 1] bcast_S1x32_S100000x32_0_1),
    binary main_v14 main_v16 main_v17 addf,
    TRef.nullary main_call1.cst (constant S_ .f32 0x00000000#32),
    TRef.unary main_call1.cst main_call1.v0 (broadcastInDim S100000x32 ![] bcast_S_S100000x32),
    TRef.binary (.of main_v17) main_call1.v0 main_call1.v1 (cmpf .ogt),
    TRef.nullary main_call1.cst_0 (constant S_ .f32 0x00000000#32),
    TRef.unary main_call1.cst_0 main_call1.v2 (broadcastInDim S100000x32 ![] bcast_S_S100000x32),
    TRef.binary (.of main_v17) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x32 ![] bcast_S_S100000x32),
    TRef.ternary main_call1.v3 main_call1.call0.v1 (.of main_v17) main_call1.call0.v2 select,
    TRef.unary main_call1.call0.v2 main_call1.v5 Host.expm1,
    TRef.nullary main_call1.cst_2 (constant S_ .f32 0x3F800000#32),
    TRef.unary main_call1.cst_2 main_call1.v6 (broadcastInDim S100000x32 ![] bcast_S_S100000x32),
    TRef.binary main_call1.v6 main_call1.v5 main_call1.v7 mulf,
    TRef.ternary main_call1.v1 (.of main_v17) main_call1.v7 main_call1.call1.v0 select ]

/-- Second collecting step. -/
abbrev opsG2 : List (HloOp τ sig (Elt F)) :=
  [ reshape main_arg1 main_v19 rfl shapeCasts_S100000x20_S2000000,
    nullary main_c_1 (constantI S_ 32 0#32),
    unary main_c_1 main_v20 (broadcastInDim S2000000 ![] bcast_S_S2000000),
    binary main_v19 main_v20 main_v21 (cmpi .slt),
    nullary main_c_2 (constantI S_ 32 100000#32),
    unary main_c_2 main_v22 (broadcastInDim S2000000 ![] bcast_S_S2000000),
    binary main_v19 main_v22 main_v23 addi,
    ternary main_v21 main_v23 main_v19 main_v24 select,
    unary main_v24 main_v25 (broadcastInDim S2000000x1 ![0] bcast_S2000000_S2000000x1_0),
    binary main_v18 main_v25 main_v26 (fun x i => Host.gather gather_S100000x32_S2000000x1_S2000000x32_1_0_n_n_0_1_132 x i),
    reshape main_v26 main_v27 rfl shapeCasts_S2000000x32_S100000x640 ]

/-- Third layer and its ELU. -/
abbrev opsL2 : List (HloOp τ sig (Elt F)) :=
  [ binary main_v27 main_arg6 main_v28 (fun l r => Host.dotGeneral dot_S100000x640_S640x64_S100000x64_1_0_0_1_n_n none l r),
    unary main_arg7 main_v29 (broadcastInDim S1x64 ![1] bcast_S64_S1x64_1),
    unary main_v29 main_v30 (broadcastInDim S100000x64 ![0, 1] bcast_S1x64_S100000x64_0_1),
    binary main_v28 main_v30 main_v31 addf,
    TRef.nullary main_call2.cst (constant S_ .f32 0x00000000#32),
    TRef.unary main_call2.cst main_call2.v0 (broadcastInDim S100000x64 ![] bcast_S_S100000x64),
    TRef.binary (.of main_v31) main_call2.v0 main_call2.v1 (cmpf .ogt),
    TRef.nullary main_call2.cst_0 (constant S_ .f32 0x00000000#32),
    TRef.unary main_call2.cst_0 main_call2.v2 (broadcastInDim S100000x64 ![] bcast_S_S100000x64),
    TRef.binary (.of main_v31) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x64 ![] bcast_S_S100000x64),
    TRef.ternary main_call2.v3 main_call2.call0.v1 (.of main_v31) main_call2.call0.v2 select,
    TRef.unary main_call2.call0.v2 main_call2.v5 Host.expm1,
    TRef.nullary main_call2.cst_2 (constant S_ .f32 0x3F800000#32),
    TRef.unary main_call2.cst_2 main_call2.v6 (broadcastInDim S100000x64 ![] bcast_S_S100000x64),
    TRef.binary main_call2.v6 main_call2.v5 main_call2.v7 mulf,
    TRef.ternary main_call2.v1 (.of main_v31) main_call2.v7 main_call2.call1.v0 select ]

/-- Third collecting step. -/
abbrev opsG3 : List (HloOp τ sig (Elt F)) :=
  [ reshape main_arg1 main_v33 rfl shapeCasts_S100000x20_S2000000,
    nullary main_c_3 (constantI S_ 32 0#32),
    unary main_c_3 main_v34 (broadcastInDim S2000000 ![] bcast_S_S2000000),
    binary main_v33 main_v34 main_v35 (cmpi .slt),
    nullary main_c_4 (constantI S_ 32 100000#32),
    unary main_c_4 main_v36 (broadcastInDim S2000000 ![] bcast_S_S2000000),
    binary main_v33 main_v36 main_v37 addi,
    ternary main_v35 main_v37 main_v33 main_v38 select,
    unary main_v38 main_v39 (broadcastInDim S2000000x1 ![0] bcast_S2000000_S2000000x1_0),
    binary main_v32 main_v39 main_v40 (fun x i => Host.gather gather_S100000x64_S2000000x1_S2000000x64_1_0_n_n_0_1_164 x i),
    reshape main_v40 main_v41 rfl shapeCasts_S2000000x64_S100000x1280 ]

/-- Fourth layer and its ELU. -/
abbrev opsL3 : List (HloOp τ sig (Elt F)) :=
  [ binary main_v41 main_arg8 main_v42 (fun l r => Host.dotGeneral dot_S100000x1280_S1280x128_S100000x128_1_0_0_1_n_n none l r),
    unary main_arg9 main_v43 (broadcastInDim S1x128 ![1] bcast_S128_S1x128_1),
    unary main_v43 main_v44 (broadcastInDim S100000x128 ![0, 1] bcast_S1x128_S100000x128_0_1),
    binary main_v42 main_v44 main_v45 addf,
    TRef.nullary main_call3.cst (constant S_ .f32 0x00000000#32),
    TRef.unary main_call3.cst main_call3.v0 (broadcastInDim S100000x128 ![] bcast_S_S100000x128),
    TRef.binary (.of main_v45) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v45) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v45) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v45) main_call3.v7 main_call3.call1.v0 select ]

/-- Fifth layer and its ELU. -/
abbrev opsL4 : List (HloOp τ sig (Elt F)) :=
  [ binary main_v46 main_arg10 main_v47 (fun l r => Host.dotGeneral dot_S100000x128_S128x256_S100000x256_1_0_0_1_n_n none l r),
    unary main_arg11 main_v48 (broadcastInDim S1x256 ![1] bcast_S256_S1x256_1),
    unary main_v48 main_v49 (broadcastInDim S100000x256 ![0, 1] bcast_S1x256_S100000x256_0_1),
    binary main_v47 main_v49 main_v50 addf,
    TRef.nullary main_call4.cst (constant S_ .f32 0x00000000#32),
    TRef.unary main_call4.cst main_call4.v0 (broadcastInDim S100000x256 ![] bcast_S_S100000x256),
    TRef.binary (.of main_v50) main_call4.v0 main_call4.v1 (cmpf .ogt),
    TRef.nullary main_call4.cst_0 (constant S_ .f32 0x00000000#32),
    TRef.unary main_call4.cst_0 main_call4.v2 (broadcastInDim S100000x256 ![] bcast_S_S100000x256),
    TRef.binary (.of main_v50) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S100000x256 ![] bcast_S_S100000x256),
    TRef.ternary main_call4.v3 main_call4.call0.v1 (.of main_v50) main_call4.call0.v2 select,
    TRef.unary main_call4.call0.v2 main_call4.v5 Host.expm1,
    TRef.nullary main_call4.cst_2 (constant S_ .f32 0x3F800000#32),
    TRef.unary main_call4.cst_2 main_call4.v6 (broadcastInDim S100000x256 ![] bcast_S_S100000x256),
    TRef.binary main_call4.v6 main_call4.v5 main_call4.v7 mulf,
    TRef.ternary main_call4.v1 (.of main_v50) main_call4.v7 main_call4.call1.v0 select ]

/-- Last layer: affine only. -/
abbrev opsL5 : List (HloOp τ sig (Elt F)) :=
  [ binary main_v51 main_arg12 main_v52 (fun l r => Host.dotGeneral dot_S100000x256_S256x10_S100000x10_1_0_0_1_n_n none l r),
    unary main_arg13 main_v53 (broadcastInDim S1x10 ![1] bcast_S10_S1x10_1),
    unary main_v53 main_v54 (broadcastInDim S100000x10 ![0, 1] bcast_S1x10_S100000x10_0_1),
    binary main_v52 main_v54 main_v55 addf ]

/-- The log-softmax function's fifteen operations: the row maximum from −∞, floored once more at a broadcast −∞, made a
    column and spread along the rows; the shifted rows; their exponentials summed from zero; the sum's logarithm as a
    column spread along the rows; the difference. -/
abbrev opsLS : List (HloOp τ sig (Elt F)) :=
  [ TRef.nullary main_call5.cst (constant S_ .f32 0xFF800000#32),
    TRef.binary (.of main_v55 : TRef sig ⟨S100000x10, .f32⟩) main_call5.cst main_call5.v0 (fun x v => Host.reduce FloatOps.maximumf x v reducesTo_S100000x10_S100000_d1 h_S_),
    TRef.nullary main_call5.cst_0 (constant S_ .f32 0xFF800000#32),
    TRef.unary main_call5.cst_0 main_call5.v1 (broadcastInDim S100000 ![] bcast_S_S100000),
    TRef.binary main_call5.v1 main_call5.v0 main_call5.v2 maximumf,
    TRef.unary main_call5.v2 main_call5.v3 (broadcastInDim S100000x1 ![0] bcast_S100000_S100000x1_0),
    TRef.unary main_call5.v3 main_call5.v4 (broadcastInDim S100000x10 ![0, 1] bcast_S100000x1_S100000x10_0_1),
    TRef.binary (.of main_v55 : TRef sig ⟨S100000x10, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S100000x10_S100000_d1 h_S_),
    TRef.unary main_call5.v7 main_call5.v8 (broadcastInDim S100000x1 ![0] bcast_S100000_S100000x1_0),
    TRef.unary main_call5.v8 main_call5.v9 Host.log,
    TRef.unary main_call5.v9 main_call5.v10 (broadcastInDim S100000x10 ![0, 1] bcast_S100000x1_S100000x10_0_1),
    TRef.binary main_call5.v5 main_call5.v10 main_call5.v11 subf ]

/-- The whole line. -/
abbrev ops : List (HloOp τ sig (Elt F)) :=
  opsL0 ++ (opsG1 ++ (opsL1 ++ (opsG2 ++ (opsL2 ++ (opsG3 ++ (opsL3 ++ (opsL4 ++ (opsL5 ++ opsLS))))))))

/-! ## The program is that line -/

-- one hundred and forty-seven binds re-associated: the rewriting recurses once per statement
set_option maxRecDepth 8192 in
set_option maxHeartbeats 4000000 in
/-- @main is the line: the outlined functions unfolded at their calls and the call records at their fields, both sides are
    one chain of host steps once sequencing is re-associated. -/
theorem main_eq (c : Dev nD) : main (F := F) c = seq ops := by
  simp only [ops, opsL0, opsG1, opsL1, opsG2, opsL2, opsG3, opsL3, opsL4, opsL5, opsLS, List.cons_append, List.nil_append,
    main, main_part0, main_part1, fn_elu.body, fn_elu_1.body, fn_elu_4.body, fn_elu_7.body, fn_elu_10.body,
    fn_where.body, fn_where_0.body, fn_where_2.body, fn_where_3.body, fn_where_5.body, fn_where_6.body, fn_where_8.body,
    fn_where_9.body, fn_where_11.body, fn_where_12.body, fn_log_softmax.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Two stretches run in order: the second one's fold from the first one's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation of a layer stretch touches TensorCore buffers only. -/
theorem subL0 : (opsL0 (F := F)).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩
theorem subL1 : (opsL1 (F := F)).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩
theorem subL2 : (opsL2 (F := F)).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩
theorem subL3 : (opsL3 (F := F)).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩
theorem subL4 : (opsL4 (F := F)).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩
theorem subL5 : (opsL5 (F := F)).Forall fun op => op.bufs ⊆ tcRefs τ sig :=
  ⟨binary_bufs_sub .., unary_bufs_sub .., unary_bufs_sub .., binary_bufs_sub ..⟩
/-- The same for a collecting stretch. -/
theorem subG1 : (opsG1 (F := F)).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub ..⟩
theorem subG2 : (opsG2 (F := F)).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub ..⟩
theorem subG3 : (opsG3 (F := F)).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub ..⟩
/-- The same for the log-softmax stretch. -/
theorem subLS : (opsLS (F := F)).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem ops_sub : (ops (F := F)).Forall fun op => op.bufs ⊆ tcRefs τ sig :=
  forall_app subL0 (forall_app subG1 (forall_app subL1 (forall_app subG2 (forall_app subL2 (forall_app subG3
    (forall_app subL3 (forall_app subL4 (forall_app subL5 subLS))))))))

/-- No operation of a stretch allocates: each determines its results. -/
theorem fresh_of {l : List (HloOp τ sig (Elt F))} (h : l.Forall fun op => op.fresh = ∅) : ∀ op ∈ l, op.fresh = ∅ :=
  List.forall_iff_forall_mem.mp h

theorem ops_fresh : (ops (F := F)).Forall fun op => op.fresh = ∅ :=
  forall_app (l₁ := opsL0) ⟨rfl, rfl, rfl, rfl, rfl, rfl, rfl, rfl, rfl, rfl, rfl, rfl, rfl, rfl, rfl, rfl, rfl, rfl, rfl⟩
  (forall_app (l₁ := opsG1) ⟨rfl, rfl, rfl, rfl, rfl, rfl, rfl, rfl, rfl, rfl, rfl⟩
  (forall_app (l₁ := opsL1) ⟨rfl, rfl, rfl, rfl, rfl, rfl, rfl, rfl, rfl, rfl, rfl, rfl, rfl, rfl, rfl, rfl, rfl, rfl, rfl⟩
  (forall_app (l₁ := opsG2) ⟨rfl, rfl, rfl, rfl, rfl, rfl, rfl, rfl, rfl, rfl, rfl⟩
  (forall_app (l₁ := opsL2) ⟨rfl, rfl, rfl, rfl, rfl, rfl, rfl, rfl, rfl, rfl, rfl, rfl, rfl, rfl, rfl, rfl, rfl, rfl, rfl⟩
  (forall_app (l₁ := opsG3) ⟨rfl, rfl, rfl, rfl, rfl, rfl, rfl, rfl, rfl, rfl, rfl⟩
  (forall_app (l₁ := opsL3) ⟨rfl, rfl, rfl, rfl, rfl, rfl, rfl, rfl, rfl, rfl, rfl, rfl, rfl, rfl, rfl, rfl, rfl, rfl, rfl⟩
  (forall_app (l₁ := opsL4) ⟨rfl, rfl, rfl, rfl, rfl, rfl, rfl, rfl, rfl, rfl, rfl, rfl, rfl, rfl, rfl, rfl, rfl, rfl, rfl⟩
  (forall_app (l₁ := opsL5) (l₂ := opsLS) ⟨rfl, rfl, rfl, rfl⟩
    ⟨rfl, rfl, rfl, rfl, rfl, rfl, rfl, rfl, rfl, rfl, rfl, rfl, rfl, rfl, rfl⟩))))))))

/-- From any memory with zero counters every weakly fair execution of @main terminates, and each TensorCore buffer ends
    at the line's fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => fresh_of ops_fresh)

/-! ## What the stretches compute

Each stretch's fold at its result buffer is the composed term of its operations over the contents it starts from: the fold
unrolled, each operation's result read at its own buffer and passed over at any other (two buffers told apart as
references); the typed references' transports are the identity at literal references. -/

/-- The ELU function's operations composed over one array: where the entry is positive the entry, elsewhere one times
    (exp − 1) of the entry with positive entries zeroed first. -/
abbrev eluT (S : Shape) (hb : S_.BroadcastsInDim S (![] : Fin 0 → Fin S.rank)) (x : FVec F S .f32) : FVec F S .f32 :=
  select (cmpf .ogt x (broadcastInDim S ![] hb (constant S_ .f32 0x00000000#32))) x
    (mulf (broadcastInDim S ![] hb (constant S_ .f32 0x3F800000#32))
      (Host.expm1 (select (cmpf .ogt x (broadcastInDim S ![] hb (constant S_ .f32 0x00000000#32)))
        (broadcastInDim S ![] hb (id (constant S_ .f32 0x00000000#32))) x)))

/-- An affine layer's operations composed: the product plus the bias row made a one-row matrix and spread over the rows. -/
abbrev preT {n k c : ℕ} (d : DotDims ⟨2, ![n, k]⟩ ⟨2, ![k, c]⟩ ⟨2, ![n, c]⟩)
    (hb1 : (⟨1, ![c]⟩ : Shape).BroadcastsInDim ⟨2, ![1, c]⟩ (![1] : Fin 1 → Fin 2))
    (hb2 : (⟨2, ![1, c]⟩ : Shape).BroadcastsInDim ⟨2, ![n, c]⟩ (![0, 1] : Fin 2 → Fin 2))
    (X : FVec F ⟨2, ![n, k]⟩ .f32) (W : FVec F ⟨2, ![k, c]⟩ .f32) (b : FVec F ⟨1, ![c]⟩ .f32) : FVec F ⟨2, ![n, c]⟩ .f32 :=
  addf (Host.dotGeneral d none X W) (broadcastInDim ⟨2, ![n, c]⟩ ![0, 1] hb2 (broadcastInDim ⟨2, ![1, c]⟩ ![1] hb1 b))

/-- The row maximum as the log-softmax function forms it. -/
abbrev mxT (y : FVec F S100000x10 .f32) : FVec F S100000 .f32 :=
  maximumf (broadcastInDim S100000 ![] bcast_S_S100000 (constant S_ .f32 0xFF800000#32))
    (Host.reduce FloatOps.maximumf y (constant S_ .f32 0xFF800000#32) reducesTo_S100000x10_S100000_d1 h_S_)

/-- The rows shifted by their maximum. -/
abbrev shT (y : FVec F S100000x10 .f32) : FVec F S100000x10 .f32 :=
  subf y (broadcastInDim S100000x10 ![0, 1] bcast_S100000x1_S100000x10_0_1
    (broadcastInDim S100000x1 ![0] bcast_S100000_S100000x1_0 (mxT y)))

/-- The log-softmax function's operations composed. -/
abbrev lsT (y : FVec F S100000x10 .f32) : FVec F S100000x10 .f32 :=
  subf (shT y) (broadcastInDim S100000x10 ![0, 1] bcast_S100000x1_S100000x10_0_1
    (Host.log (broadcastInDim S100000x1 ![0] bcast_S100000_S100000x1_0
      (Host.reduceAdd (Host.exp (shT y)) (constant S_ .f32 0x00000000#32) reducesTo_S100000x10_S100000_d1 h_S_))))

/-- The start indices of the row gathers: the spiral indices flattened, a negative one wrapped by the number of
    vertices, as a column. -/
def starts (idx : IVec S100000x20 32) : IVec S2000000x1 32 :=
  broadcastInDim S2000000x1 ![0] bcast_S2000000_S2000000x1_0
    (select
      (cmpi .slt (shapeCast S2000000 idx shapeCasts_S100000x20_S2000000)
        (broadcastInDim S2000000 ![] bcast_S_S2000000 (constantI S_ 32 0#32)))
      (addi (shapeCast S2000000 idx shapeCasts_S100000x20_S2000000)
        (broadcastInDim S2000000 ![] bcast_S_S2000000 (constantI S_ 32 100000#32)))
      (shapeCast S2000000 idx shapeCasts_S100000x20_S2000000))

/-- The first collecting step: for every vertex the sixteen-wide rows of its twenty spiral vertices, side by side. -/
def take16 (idx : IVec S100000x20 32) : Cert.Net.Mat 100000 16 → Cert.Net.Mat 100000 320 := fun X =>
  shapeCast S100000x320 (Host.gather gather_S100000x16_S2000000x1_S2000000x16_1_0_n_n_0_1_116 X (starts idx))
    shapeCasts_S2000000x16_S100000x320

/-- The second collecting step, on thirty-two-wide rows. -/
def take32 (idx : IVec S100000x20 32) : Cert.Net.Mat 100000 32 → Cert.Net.Mat 100000 640 := fun X =>
  shapeCast S100000x640 (Host.gather gather_S100000x32_S2000000x1_S2000000x32_1_0_n_n_0_1_132 X (starts idx))
    shapeCasts_S2000000x32_S100000x640

/-- The third collecting step, on sixty-four-wide rows. -/
def take64 (idx : IVec S100000x20 32) : Cert.Net.Mat 100000 64 → Cert.Net.Mat 100000 1280 := fun X =>
  shapeCast S100000x1280 (Host.gather gather_S100000x64_S2000000x1_S2000000x64_1_0_n_n_0_1_164 X (starts idx))
    shapeCasts_S2000000x64_S100000x1280

/-- The fold of one stretch read at one buffer: unrolled, each operation's result at its own buffer its function's value
    and at another buffer what was there. -/
macro "stretch_results" : tactic =>
  `(tactic| (simp (disch := decide) only [opsL0, opsG1, opsL1, opsG2, opsL2, opsG3, opsL3, opsL4, opsL5, opsLS, after_cons, after_nil,
      nullary_result', unary_result', binary_result', ternary_result', reshape_result',
      nullary_result_ne', unary_result_ne', binary_result_ne', ternary_result_ne', reshape_result_ne']))

/-- A typed reference's two transports undo each other. -/
theorem ofBuf_toBuf {T : BufTy} (x : TRef sig T) (v : T.Contents (Elt F)) : x.ofBuf (x.toBuf v) = v := by
  obtain ⟨r, h, _, _⟩ := x
  subst h
  rfl

section Values

variable (V : Valuation τ sig (Elt F))

theorem L0_val :
    after opsL0 V (Proc.devRef .tc main_v4)
      = eluT S100000x16 bcast_S_S100000x16 (preT dot_S100000x3_S3x16_S100000x16_1_0_0_1_n_n bcast_S16_S1x16_1
          bcast_S1x16_S100000x16_0_1 (V (Proc.devRef .tc main_arg0)) (V (Proc.devRef .tc main_arg2)) (V (Proc.devRef .tc main_arg3))) := by
  stretch_results
  rfl

theorem L1_val :
    after opsL1 V (Proc.devRef .tc main_v18)
      = eluT S100000x32 bcast_S_S100000x32 (preT dot_S100000x320_S320x32_S100000x32_1_0_0_1_n_n bcast_S32_S1x32_1
          bcast_S1x32_S100000x32_0_1 (V (Proc.devRef .tc main_v13)) (V (Proc.devRef .tc main_arg4)) (V (Proc.devRef .tc main_arg5))) := by
  stretch_results
  rfl

theorem L2_val :
    after opsL2 V (Proc.devRef .tc main_v32)
      = eluT S100000x64 bcast_S_S100000x64 (preT dot_S100000x640_S640x64_S100000x64_1_0_0_1_n_n bcast_S64_S1x64_1
          bcast_S1x64_S100000x64_0_1 (V (Proc.devRef .tc main_v27)) (V (Proc.devRef .tc main_arg6)) (V (Proc.devRef .tc main_arg7))) := by
  stretch_results
  rfl

theorem L3_val :
    after opsL3 V (Proc.devRef .tc main_v46)
      = eluT S100000x128 bcast_S_S100000x128 (preT dot_S100000x1280_S1280x128_S100000x128_1_0_0_1_n_n bcast_S128_S1x128_1
          bcast_S1x128_S100000x128_0_1 (V (Proc.devRef .tc main_v41)) (V (Proc.devRef .tc main_arg8)) (V (Proc.devRef .tc main_arg9))) := by
  stretch_results
  rfl

theorem L4_val :
    after opsL4 V (Proc.devRef .tc main_v51)
      = eluT S100000x256 bcast_S_S100000x256 (preT dot_S100000x128_S128x256_S100000x256_1_0_0_1_n_n bcast_S256_S1x256_1
          bcast_S1x256_S100000x256_0_1 (V (Proc.devRef .tc main_v46)) (V (Proc.devRef .tc main_arg10)) (V (Proc.devRef .tc main_arg11))) := by
  stretch_results
  rfl

theorem L5_val :
    after opsL5 V (Proc.devRef .tc main_v55)
      = preT dot_S100000x256_S256x10_S100000x10_1_0_0_1_n_n bcast_S10_S1x10_1
          bcast_S1x10_S100000x10_0_1 (V (Proc.devRef .tc main_v51)) (V (Proc.devRef .tc main_arg12)) (V (Proc.devRef .tc main_arg13)) := by
  stretch_results

/-- The two reductions range over a full-size array, so the transports between an operation's result and its reader are
    removed pair by pair first; what is left differs from the composed term by the two outermost transports only. -/
theorem LS_val :
    after opsLS V (Proc.devRef .tc main_v56) = lsT (V (Proc.devRef .tc main_v55)) := by
  stretch_results
  simp only [ofBuf_toBuf]
  rfl

end Values

section Takes

variable (V : Valuation τ sig (Elt Ideal))

theorem G1_val :
    after opsG1 V (Proc.devRef .tc main_v13) = take16 (V (Proc.devRef .tc main_arg1)) (V (Proc.devRef .tc main_v4)) := by
  stretch_results
  rfl

theorem G2_val :
    after opsG2 V (Proc.devRef .tc main_v27) = take32 (V (Proc.devRef .tc main_arg1)) (V (Proc.devRef .tc main_v18)) := by
  stretch_results
  rfl

theorem G3_val :
    after opsG3 V (Proc.devRef .tc main_v41) = take64 (V (Proc.devRef .tc main_arg1)) (V (Proc.devRef .tc main_v32)) := by
  stretch_results
  rfl

end Takes

/-! ## The arguments are not written -/

/-- The fourteen argument buffers. -/
def argRefs : List (Ref sig .tc) :=
  [main_arg0, main_arg1, main_arg2, main_arg3, main_arg4, main_arg5, main_arg6, main_arg7, main_arg8, main_arg9, main_arg10,
    main_arg11, main_arg12, main_arg13]

/-- Two contents agree on the argument buffers. -/
def ArgsSame (V' V : Valuation τ sig (Elt F)) : Prop :=
  ∀ r ∈ argRefs, V' (Proc.devRef .tc r) = V (Proc.devRef .tc r)

theorem ArgsSame.trans {V₁ V₂ V₃ : Valuation τ sig (Elt F)} (h₁ : ArgsSame V₃ V₂) (h₂ : ArgsSame V₂ V₁) : ArgsSame V₃ V₁ :=
  fun r hr => (h₁ r hr).trans (h₂ r hr)

set_option hygiene false in
/-- A stretch that writes no argument buffer: case by case over the fourteen, each operation passed over. -/
macro "args_same" : tactic =>
  `(tactic| (
    intro r hr
    simp only [argRefs, List.mem_cons, List.not_mem_nil, or_false] at hr
    rcases hr with rfl | rfl | rfl | rfl | rfl | rfl | rfl | rfl | rfl | rfl | rfl | rfl | rfl | rfl
    all_goals stretch_results))

section Args
variable (V : Valuation τ sig (Elt F))
theorem argsL0 : ArgsSame (after opsL0 V) V := by args_same
theorem argsG1 : ArgsSame (after opsG1 V) V := by args_same
theorem argsL1 : ArgsSame (after opsL1 V) V := by args_same
theorem argsG2 : ArgsSame (after opsG2 V) V := by args_same
theorem argsL2 : ArgsSame (after opsL2 V) V := by args_same
theorem argsG3 : ArgsSame (after opsG3 V) V := by args_same
theorem argsL3 : ArgsSame (after opsL3 V) V := by args_same
theorem argsL4 : ArgsSame (after opsL4 V) V := by args_same
theorem argsL5 : ArgsSame (after opsL5 V) V := by args_same
theorem argsLS : ArgsSame (after opsLS V) V := by args_same

/-- The whole line writes no argument buffer. -/
theorem args_ops : ArgsSame (after ops V) V := by
  show ArgsSame (after (opsL0 ++ (opsG1 ++ (opsL1 ++ (opsG2 ++ (opsL2 ++ (opsG3 ++ (opsL3 ++ (opsL4 ++ (opsL5 ++ opsLS))))))))) V) V
  rw [after_app, after_app, after_app, after_app, after_app, after_app, after_app, after_app, after_app]
  exact (argsLS _).trans ((argsL5 _).trans ((argsL4 _).trans ((argsL3 _).trans ((argsG3 _).trans ((argsL2 _).trans
    ((argsG2 _).trans ((argsL1 _).trans ((argsG1 _).trans (argsL0 V)))))))))
end Args

/-! ## The chain -/

/-- The result buffer after the whole line, as the stretches' terms composed over the launch contents. -/
theorem value (V : Valuation τ sig (Elt Ideal)) :
    after (ops (F := Ideal)) V (Proc.devRef .tc main_v56)
      = lsT (F := Ideal) (preT dot_S100000x256_S256x10_S100000x10_1_0_0_1_n_n bcast_S10_S1x10_1 bcast_S1x10_S100000x10_0_1
          (eluT (F := Ideal) S100000x256 bcast_S_S100000x256 (preT dot_S100000x128_S128x256_S100000x256_1_0_0_1_n_n bcast_S256_S1x256_1 bcast_S1x256_S100000x256_0_1
            (eluT (F := Ideal) S100000x128 bcast_S_S100000x128 (preT dot_S100000x1280_S1280x128_S100000x128_1_0_0_1_n_n bcast_S128_S1x128_1 bcast_S1x128_S100000x128_0_1
              (take64 (V (Proc.devRef .tc main_arg1))
                (eluT (F := Ideal) S100000x64 bcast_S_S100000x64 (preT dot_S100000x640_S640x64_S100000x64_1_0_0_1_n_n bcast_S64_S1x64_1 bcast_S1x64_S100000x64_0_1
                  (take32 (V (Proc.devRef .tc main_arg1))
                    (eluT (F := Ideal) S100000x32 bcast_S_S100000x32 (preT dot_S100000x320_S320x32_S100000x32_1_0_0_1_n_n bcast_S32_S1x32_1 bcast_S1x32_S100000x32_0_1
                      (take16 (V (Proc.devRef .tc main_arg1))
                        (eluT (F := Ideal) S100000x16 bcast_S_S100000x16 (preT dot_S100000x3_S3x16_S100000x16_1_0_0_1_n_n bcast_S16_S1x16_1 bcast_S1x16_S100000x16_0_1
                          (V (Proc.devRef .tc main_arg0)) (V (Proc.devRef .tc main_arg2)) (V (Proc.devRef .tc main_arg3)))))
                      (V (Proc.devRef .tc main_arg4)) (V (Proc.devRef .tc main_arg5)))))
                  (V (Proc.devRef .tc main_arg6)) (V (Proc.devRef .tc main_arg7)))))
              (V (Proc.devRef .tc main_arg8)) (V (Proc.devRef .tc main_arg9))))
            (V (Proc.devRef .tc main_arg10)) (V (Proc.devRef .tc main_arg11))))
          (V (Proc.devRef .tc main_arg12)) (V (Proc.devRef .tc main_arg13))) := by
  have a0 := argsL0 V
  have a1 := (argsG1 _).trans a0
  have a2 := (argsL1 _).trans a1
  have a3 := (argsG2 _).trans a2
  have a4 := (argsL2 _).trans a3
  have a5 := (argsG3 _).trans a4
  have a6 := (argsL3 _).trans a5
  have a7 := (argsL4 _).trans a6
  show after (opsL0 ++ (opsG1 ++ (opsL1 ++ (opsG2 ++ (opsL2 ++ (opsG3 ++ (opsL3 ++ (opsL4 ++ (opsL5 ++ opsLS))))))))) V _ = _
  rw [after_app, after_app, after_app, after_app, after_app, after_app, after_app, after_app, after_app]
  rw [LS_val, L5_val, a7 main_arg12 (by decide), a7 main_arg13 (by decide),
    L4_val, a6 main_arg10 (by decide), a6 main_arg11 (by decide),
    L3_val, a5 main_arg8 (by decide), a5 main_arg9 (by decide),
    G3_val, a4 main_arg1 (by decide),
    L2_val, a3 main_arg6 (by decide), a3 main_arg7 (by decide),
    G2_val, a2 main_arg1 (by decide),
    L1_val, a1 main_arg4 (by decide), a1 main_arg5 (by decide),
    G1_val, a0 main_arg1 (by decide),
    L0_val]

/-! ## The result is the network

The chain's term is rewritten, outermost stage first, by the stage equations: the log-softmax function's operations are
the specification's log-softmax, an affine layer's operations the specification's affine map, the ELU function's operations
the pointwise ELU; an affine map under the pointwise ELU is a dense layer by definition, and the collecting steps are the
three maps the network takes as parameters. -/

theorem value_net (V : Valuation τ sig (Elt Ideal)) :
    (after (ops (F := Ideal)) V (Proc.devRef .tc main_v56) : Cert.Net.Mat 100000 10)
      = Cert.Net.net (take16 (V (Proc.devRef .tc main_arg1))) (take32 (V (Proc.devRef .tc main_arg1)))
          (take64 (V (Proc.devRef .tc main_arg1)))
          (V (Proc.devRef .tc main_arg0)) (V (Proc.devRef .tc main_arg2)) (V (Proc.devRef .tc main_arg3))
          (V (Proc.devRef .tc main_arg4)) (V (Proc.devRef .tc main_arg5)) (V (Proc.devRef .tc main_arg6))
          (V (Proc.devRef .tc main_arg7)) (V (Proc.devRef .tc main_arg8)) (V (Proc.devRef .tc main_arg9))
          (V (Proc.devRef .tc main_arg10)) (V (Proc.devRef .tc main_arg11)) (V (Proc.devRef .tc main_arg12))
          (V (Proc.devRef .tc main_arg13)) := by
  rw [value V]
  generalize V (Proc.devRef .tc main_arg0) = pos
  generalize V (Proc.devRef .tc main_arg1) = idx
  generalize V (Proc.devRef .tc main_arg2) = W0
  generalize V (Proc.devRef .tc main_arg3) = b0
  generalize V (Proc.devRef .tc main_arg4) = W1
  generalize V (Proc.devRef .tc main_arg5) = b1
  generalize V (Proc.devRef .tc main_arg6) = W2
  generalize V (Proc.devRef .tc main_arg7) = b2
  generalize V (Proc.devRef .tc main_arg8) = W3
  generalize V (Proc.devRef .tc main_arg9) = b3
  generalize V (Proc.devRef .tc main_arg10) = Wf1
  generalize V (Proc.devRef .tc main_arg11) = bf1
  generalize V (Proc.devRef .tc main_arg12) = Wf2
  generalize V (Proc.devRef .tc main_arg13) = bf2
  unfold lsT shT mxT
  rw [Cert.RefStages.logSoftmax_eq reducesTo_S100000x10_S100000_d1 h_S_ bcast_S_S100000 bcast_S100000_S100000x1_0
    bcast_S100000x1_S100000x10_0_1]
  unfold eluT preT
  rw [Cert.RefStages.affine_eq dot_S100000x256_S256x10_S100000x10_1_0_0_1_n_n rfl rfl rfl rfl rfl rfl,
    Cert.RefStages.elu_eq bcast_S_S100000x256,
    Cert.RefStages.affine_eq dot_S100000x128_S128x256_S100000x256_1_0_0_1_n_n rfl rfl rfl rfl rfl rfl,
    Cert.RefStages.elu_eq bcast_S_S100000x128,
    Cert.RefStages.affine_eq dot_S100000x1280_S1280x128_S100000x128_1_0_0_1_n_n rfl rfl rfl rfl rfl rfl,
    Cert.RefStages.elu_eq bcast_S_S100000x64,
    Cert.RefStages.affine_eq dot_S100000x640_S640x64_S100000x64_1_0_0_1_n_n rfl rfl rfl rfl rfl rfl,
    Cert.RefStages.elu_eq bcast_S_S100000x32,
    Cert.RefStages.affine_eq dot_S100000x320_S320x32_S100000x32_1_0_0_1_n_n rfl rfl rfl rfl rfl rfl,
    Cert.RefStages.elu_eq bcast_S_S100000x16,
    Cert.RefStages.affine_eq dot_S100000x3_S3x16_S100000x16_1_0_0_1_n_n rfl rfl rfl rfl rfl rfl]
  rfl

/-! ## The run -/

/-- From any memory with zero counters every weakly fair execution of the reference terminates; the result buffer ends at
    the network of the launch contents, with the three collecting maps read off the spiral indices, and every argument
    buffer ends as it began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v56) : Cert.Net.Mat 100000 10)
        = Cert.Net.net (take16 (m ((c.tc : Thread nD τ).loc main_arg1))) (take32 (m ((c.tc : Thread nD τ).loc main_arg1)))
            (take64 (m ((c.tc : Thread nD τ).loc main_arg1)))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_v56).trans (value_net (launchContents m c)),
      (h c main_arg0).trans (args_ops (launchContents m c) main_arg0 (by decide)),
      (h c main_arg1).trans (args_ops (launchContents m c) main_arg1 (by decide)),
      (h c main_arg2).trans (args_ops (launchContents m c) main_arg2 (by decide)),
      (h c main_arg3).trans (args_ops (launchContents m c) main_arg3 (by decide)),
      (h c main_arg4).trans (args_ops (launchContents m c) main_arg4 (by decide)),
      (h c main_arg5).trans (args_ops (launchContents m c) main_arg5 (by decide)),
      (h c main_arg6).trans (args_ops (launchContents m c) main_arg6 (by decide)),
      (h c main_arg7).trans (args_ops (launchContents m c) main_arg7 (by decide)),
      (h c main_arg8).trans (args_ops (launchContents m c) main_arg8 (by decide)),
      (h c main_arg9).trans (args_ops (launchContents m c) main_arg9 (by decide)),
      (h c main_arg10).trans (args_ops (launchContents m c) main_arg10 (by decide)),
      (h c main_arg11).trans (args_ops (launchContents m c) main_arg11 (by decide)),
      (h c main_arg12).trans (args_ops (launchContents m c) main_arg12 (by decide)),
      (h c main_arg13).trans (args_ops (launchContents m c) main_arg13 (by decide))⟩)
    (run_all m ρ)

end Cert.RefSide

end
-- ==== Proof.PreFacts.lean ====
import proofs.«400294_j67422396612957_3_alg».proof.Defs
import proofs.«400294_j67422396612957_3_alg».proof.Proof.Gen.Pre_finite_inputs
import Idealize.ShloMosaic.Lib.ReduceAll
import Idealize.ShloMosaic.Lib.StableHlo.Predicate
import Idealize.ShloMosaic.Lib.ValueIdx

/-!
  The index range, read back out of the printed precondition.

  The precondition is a conjunction of one-bit words: thirteen "every entry is finite" bits, then
  "every index is at least 0" and "every index is below 100000". Each of the last two is an
  and-reduction, over the whole index array, of a signed word comparison against a broadcast
  constant. A conjunction of bits that is 1 has every conjunct 1; an and-reduction that is 1 met
  only 1s; and a comparison bit that is 1 says the signed order of the two words. So every index
  word, read as a signed integer, lies in [0, 100000).

  The second fact is about clipping such a word to [0, 99999]: a signed maximum with 0 and then a
  signed minimum with 99999 leave it as it is.
-/

noncomputable section

namespace Cert.PreFacts
open Idealize.ShloMosaic Idealize.SL.Sem

/-- The rank-0 shape has one index. -/
instance : Subsingleton Cert.Pre_finite_inputs.S_.Idx := ⟨fun a b => funext fun d => d.elim0⟩

/-- A one-bit word made from a Boolean is 1 exactly when the Boolean is true. -/
theorem ofBool_one (b : Bool) (h : BitVec.ofBool b = 1#1) : b = true := by
  cases b
  · exact absurd h (by decide)
  · rfl

/-- The "signed less than" bit of two words is 1 only if the first is below the second as integers. -/
theorem slt_bit (a b : BitVec 32) (h : IntOp.cmpi .slt a b = 1#1) : a.toInt < b.toInt := by
  have h' : a.slt b = true := ofBool_one _ h
  simpa only [BitVec.slt, decide_eq_true_eq] using h'

/-- The "signed at least" bit of two words is 1 only if the second is at most the first as integers. -/
theorem sge_bit (a b : BitVec 32) (h : IntOp.cmpi .sge a b = 1#1) : b.toInt ≤ a.toInt := by
  have h' : b.sle a = true := ofBool_one _ h
  simpa only [BitVec.sle, decide_eq_true_eq] using h'

section
variable [hF : Cert.Pre_finite_inputs.Facts]

/-- The last part of the predicate: its result bit is the bit carried in, and-ed with "every index is
    below 100000". If the result is 1, so is the bit carried in, and every index is below 100000. -/
theorem part4_dec (x : IVec Cert.Pre_finite_inputs.S100000x20 32) (v : IVec Cert.Pre_finite_inputs.S_ 1)
    (i : Cert.Pre_finite_inputs.S_.Idx)
    (e : Cert.Pre_finite_inputs.fn_part4 (F := Ideal) x v i = 1#1) :
    v i = 1#1 ∧ ∀ j : Cert.Pre_finite_inputs.S100000x20.Idx, (x j).toInt < 100000 := by
  unfold Cert.Pre_finite_inputs.fn_part4 at e
  dsimp only at e
  obtain ⟨hv, hr⟩ := IntOp.andi_eq_one.1 e
  refine ⟨hv, fun j => ?_⟩
  have hj := Host.reduce_andi_all _ _ _ _ i hr j
  have hlt : (x j).toInt < (100000#32 : BitVec 32).toInt := slt_bit (x j) 100000#32 hj
  have hc : (100000#32 : BitVec 32).toInt = 100000 := by decide
  omega

/-- The part before it ends with "every index is at least 0", and-ed onto the finiteness bits, and
    hands the result to the last part. If the whole is 1, every index is in [0, 100000). -/
theorem part3_dec (x : IVec Cert.Pre_finite_inputs.S100000x20 32)
    (a12 : FVec Ideal Cert.Pre_finite_inputs.S256x10 .f32) (a13 : FVec Ideal Cert.Pre_finite_inputs.S10 .f32)
    (v48 : IVec Cert.Pre_finite_inputs.S_ 1) (v49 v50 : FVec Ideal Cert.Pre_finite_inputs.S256 .f32)
    (i : Cert.Pre_finite_inputs.S_.Idx)
    (e : Cert.Pre_finite_inputs.fn_part3 (F := Ideal) x a12 a13 v48 v49 v50 i = 1#1) :
    ∀ j : Cert.Pre_finite_inputs.S100000x20.Idx, 0 ≤ (x j).toInt ∧ (x j).toInt < 100000 := by
  unfold Cert.Pre_finite_inputs.fn_part3 at e
  dsimp only at e
  obtain ⟨h67, hlt⟩ := part4_dec x _ i e
  obtain ⟨-, hr⟩ := IntOp.andi_eq_one.1 h67
  intro j
  refine ⟨?_, hlt j⟩
  have hj := Host.reduce_andi_all _ _ _ _ i hr j
  have hge : (0#32 : BitVec 32).toInt ≤ (x j).toInt := sge_bit (x j) 0#32 hj
  have hc : (0#32 : BitVec 32).toInt = 0 := by decide
  omega

end

/-- Every entry of the index array the kernel program is launched with lies in [0, 100000). -/
theorem idx_range (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (j : Cert.KernelIdeal.S100000x20.Idx) :
    0 ≤ ((m ((c.tc : Thread Cert.KernelIdeal.nD Cert.KernelIdeal.τ).loc Cert.KernelIdeal.main_arg1) : IVec Cert.KernelIdeal.S100000x20 32) j).toInt
      ∧ ((m ((c.tc : Thread Cert.KernelIdeal.nD Cert.KernelIdeal.τ).loc Cert.KernelIdeal.main_arg1) : IVec Cert.KernelIdeal.S100000x20 32) j).toInt < 100000 := by
  have e := congrFun (h c) ValueIdx.ix0
  unfold Cert.Pre_finite_inputs.fn at e
  dsimp only at e
  unfold Cert.Pre_finite_inputs.fn_part1 at e
  dsimp only at e
  unfold Cert.Pre_finite_inputs.fn_part2 at e
  dsimp only at e
  exact part3_dec (hF := Cert.Pre_finite_inputs.Gen.facts) _ _ _ _ _ _ _ e j

/-- Clipping a word that already lies in [0, 100000) to [0, 99999]: the signed maximum with 0 keeps it
    (it is not below 0), and the signed minimum with 99999 keeps it (99999 is not below it). -/
theorem clip_id (w : BitVec 32) (h0 : 0 ≤ w.toInt) (h1 : w.toInt < 100000) :
    IntOp.minsi 99999#32 (IntOp.maxsi 0#32 w) = w := by
  have hz : (0#32 : BitVec 32).toInt = 0 := by decide
  have hn : (99999#32 : BitVec 32).toInt = 99999 := by decide
  have hmax : IntOp.maxsi 0#32 w = w := by
    unfold IntOp.maxsi
    rw [if_neg]
    simp only [BitVec.slt, decide_eq_true_eq, hz]
    omega
  rw [hmax]
  unfold IntOp.minsi
  rw [if_neg]
  simp only [BitVec.slt, decide_eq_true_eq, hn]
  omega

end Cert.PreFacts

end
-- ==== Proof.Bridge.lean ====
import proofs.«400294_j67422396612957_3_alg».proof.Proof.KerChain
import proofs.«400294_j67422396612957_3_alg».proof.Proof.PreFacts
import proofs.«400294_j67422396612957_3_alg».proof.Proof.RefRun

/-!
  The two programs collect the same rows.

  The kernel program clips the index array into [0, 99999] before it lays it out as one long vector; the reference lays
  the index array out as it is. Under the precondition every index already lies in [0, 100000), so the clip changes
  nothing and the two long vectors are one. From there on the two programs apply the same operations to it — move an
  index below zero up by the table's length, lay the vector out as a column, take the table's rows at those start
  indices, and put every vertex's twenty rows side by side — so their collecting maps are the same functions of the
  table.
-/

noncomputable section

namespace Cert.Bridge

open Idealize.ShloMosaic

/-- Clipping an index array whose entries already lie in [0, 100000) leaves it as it is, entry by entry; so the
    clipped array laid out as a long vector is the array itself laid out so. -/
theorem clipped_eq (idx : IVec Cert.KernelIdeal.S100000x20 32)
    (hidx : ∀ j, 0 ≤ (idx j).toInt ∧ (idx j).toInt < 100000) :
    Cert.KerChain.clipped idx
      = shapeCast Cert.KernelIdeal.S2000000 idx Cert.KernelIdeal.Gen.shapeCasts_S100000x20_S2000000 := by
  have e : minsi (broadcastInDim Cert.KernelIdeal.S100000x20 ![] Cert.KernelIdeal.Gen.bcast_S_S100000x20
        (constantI Cert.KernelIdeal.S_ 32 99999#32))
      (maxsi (broadcastInDim Cert.KernelIdeal.S100000x20 ![] Cert.KernelIdeal.Gen.bcast_S_S100000x20
        (constantI Cert.KernelIdeal.S_ 32 0#32)) idx) = idx :=
    funext fun j => Cert.PreFacts.clip_id (idx j) (hidx j).1 (hidx j).2
  unfold Cert.KerChain.clipped
  rw [e]

/-- The reference's collecting map over a 16-column table is the kernel program's at the clipped indices: with the
    clip gone, both lay the same index vector out, shift the same entries, and take the same rows. -/
theorem take16_eq (idx : IVec Cert.KernelIdeal.S100000x20 32)
    (hidx : ∀ j, 0 ≤ (idx j).toInt ∧ (idx j).toInt < 100000) :
    Cert.RefSide.take16 idx = Cert.KerChain.take16 (Cert.KerChain.clipped idx) := by
  rw [clipped_eq idx hidx]
  rfl

/-- The same over a 32-column table. -/
theorem take32_eq (idx : IVec Cert.KernelIdeal.S100000x20 32)
    (hidx : ∀ j, 0 ≤ (idx j).toInt ∧ (idx j).toInt < 100000) :
    Cert.RefSide.take32 idx = Cert.KerChain.take32 (Cert.KerChain.clipped idx) := by
  rw [clipped_eq idx hidx]
  rfl

/-- The same over a 64-column table. -/
theorem take64_eq (idx : IVec Cert.KernelIdeal.S100000x20 32)
    (hidx : ∀ j, 0 ≤ (idx j).toInt ∧ (idx j).toInt < 100000) :
    Cert.RefSide.take64 idx = Cert.KerChain.take64 (Cert.KerChain.clipped idx) := by
  rw [clipped_eq idx hidx]
  rfl

end Cert.Bridge

end
-- ==== Proof.lean ====
/-
  A network on a mesh of 100000 vertices: positions go through an affine layer with ELU to 16 features; three times every
  vertex collects the feature rows of the twenty vertices of its spiral side by side and an affine layer with ELU maps
  the 20·C collected features to 32, 64 and 128 features; one more ELU layer (256 features), an affine layer to 10
  classes, and the logarithm of the softmax along each row.

  The kernel program computes the layers in four regions, 2000 rows of vertices to a grid point, and the collecting
  steps between the regions on the host, from the spiral indices clipped once into the table's range; the reference
  computes whole arrays on the host and collects at the indices as given, where an index below zero counts from the
  table's end. Over the extended reals a change of float format is the identity, a product into a zero accumulator is
  the plain sum of products, and the two spellings of ELU (exp z − 1 against 1 · expm1 z) are one function, so layer by
  layer the two programs compute the same function of the same rows; every layer reads row v of its result from row v of
  its operand only, which is why a block of 2000 rows of the kernel's output is the layer of that block of rows. The one
  place where the programs differ is the treatment of an index outside [0, 100000): for −100000 < i < 0 the reference
  reads row i + 100000 and the kernel row 0. The precondition puts every spiral index inside the table; there clipping
  changes nothing, both programs form the same start indices, and the collecting steps are the same maps of whole
  arrays. No law of arithmetic beyond 1 · w = w is used, so finiteness of the float inputs is never opened.
-/
import proofs.«400294_j67422396612957_3_alg».proof.Defs
import proofs.«400294_j67422396612957_3_alg».proof.Proof.Gen.Kernel
import proofs.«400294_j67422396612957_3_alg».proof.Proof.Gen.Kernel.Frame
import proofs.«400294_j67422396612957_3_alg».proof.Proof.Gen.KernelIdeal
import proofs.«400294_j67422396612957_3_alg».proof.Proof.Gen.KernelIdeal.Frame
import proofs.«400294_j67422396612957_3_alg».proof.Proof.Gen.ReferenceIdeal
import proofs.«400294_j67422396612957_3_alg».proof.Proof.Gen.Pre_finite_inputs
import proofs.«400294_j67422396612957_3_alg».proof.Proof.KerRun
import proofs.«400294_j67422396612957_3_alg».proof.Proof.KerChain
import proofs.«400294_j67422396612957_3_alg».proof.Proof.KerLayer0
import proofs.«400294_j67422396612957_3_alg».proof.Proof.KerLayer1
import proofs.«400294_j67422396612957_3_alg».proof.Proof.KerLayer2
import proofs.«400294_j67422396612957_3_alg».proof.Proof.KerHead
import proofs.«400294_j67422396612957_3_alg».proof.Proof.RefRun
import proofs.«400294_j67422396612957_3_alg».proof.Proof.PreFacts
import proofs.«400294_j67422396612957_3_alg».proof.Proof.Bridge

noncomputable section

namespace Cert.Proof

open Idealize.ShloMosaic Idealize.SL.Sem

/-- The word-level program runs and leaves its arguments unchanged. -/
theorem frame_kernel : Cert.frame_Kernel := fun m ρ _ => Cert.Kernel.Gen.frame m ρ

/-- The idealized program runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.RefSide.run m ρ)

/-- The ideal pass rewrote nothing. -/
theorem preserves : Cert.preserves_Kernel_KernelIdeal := trivial

/-- Both programs end with the network of the arguments. The kernel program reads its collecting maps at the clipped
    indices, the reference at the indices as given; the precondition puts every index inside the table, where clipping
    changes nothing, and there the two collecting maps are one. -/
theorem algebraic : Cert.algebraic_KernelIdeal_ReferenceIdeal := by
  intro m ρ m' ρ' hpre hagree
  refine ⟨fun c => Cert.Net.net (Cert.KerChain.take16 (Cert.KerChain.clipped (m ((c.tc : Thread Cert.KernelIdeal.nD Cert.KernelIdeal.τ).loc Cert.KernelIdeal.main_arg1)))) (Cert.KerChain.take32 (Cert.KerChain.clipped (m ((c.tc : Thread Cert.KernelIdeal.nD Cert.KernelIdeal.τ).loc Cert.KernelIdeal.main_arg1)))) (Cert.KerChain.take64 (Cert.KerChain.clipped (m ((c.tc : Thread Cert.KernelIdeal.nD Cert.KernelIdeal.τ).loc Cert.KernelIdeal.main_arg1))))
          (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KerChain.result_out m ρ Cert.KerLayers.layer0 Cert.KerLayers.layer1 Cert.KerLayers.layer2
        Cert.KerLayers.head c), (h c).2⟩) (Cert.KerRun.run_result m ρ)
  · refine (θ_run Cert.ReferenceIdeal.defs _ _).mono (fun r h c => ⟨(h c).1.trans ?_, (h c).2⟩) (Cert.RefSide.run m' ρ')
    have hidx := fun j => Cert.PreFacts.idx_range m hpre c j
    obtain ⟨e0, e1, e2, e3, e4, e5, e6, e7, e8, e9, e10, e11, e12, e13⟩ := hagree c
    rw [e0, e1, e2, e3, e4, e5, e6, e7, e8, e9, e10, e11, e12, e13]
    rw [Cert.Bridge.take16_eq _ hidx, Cert.Bridge.take32_eq _ hidx, Cert.Bridge.take64_eq _ hidx]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
